-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S1024 : Shape := ⟨1, ![1024]⟩
abbrev S2x16000000 : Shape := ⟨2, ![2, 16000000]⟩
abbrev S2x250000 : Shape := ⟨2, ![2, 250000]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x16000000 : S_.BroadcastsInDim S2x16000000 (![] : Fin 0 → Fin S2x16000000.rank)
  reducesTo_S2x16000000_S_d0_1 : S2x16000000.ReducesTo [0, 1] S_
  bcast_S_S2x250000 : S_.BroadcastsInDim S2x250000 (![] : Fin 0 → Fin S2x250000.rank)
  reducesTo_S2x250000_S_d0_1 : S2x250000.ReducesTo [0, 1] S_

variable [Facts]

def fn_part1 {F : FTy → Type} [FloatOps F] (main_arg4 : IVec S2x16000000 32) (main_arg5 : IVec S2x250000 32) (main_v12 : IVec S_ 1) (main_v15 : IVec S_ 1) : IVec S_ 1 :=
  let main_v16 : IVec S_ 1 := andi main_v12 main_v15
  let main_c_6 : IVec S_ 32 := constantI S_ 32 0#32
  let main_v17 : IVec S2x16000000 32 := broadcastInDim S2x16000000 ![] bcast_S_S2x16000000 main_c_6
  let main_v18 : IVec S2x16000000 1 := cmpi .sge main_arg4 main_v17
  let main_c_7 : IVec S_ 1 := constantI S_ 1 1#1
  let main_v19 : IVec S_ 1 := (fun x v => Host.reduce IntOp.andi x v reducesTo_S2x16000000_S_d0_1 h_S_) main_v18 main_c_7
  let main_v20 : IVec S_ 1 := andi main_v16 main_v19
  let main_c_8 : IVec S_ 32 := constantI S_ 32 1024#32
  let main_v21 : IVec S2x16000000 32 := broadcastInDim S2x16000000 ![] bcast_S_S2x16000000 main_c_8
  let main_v22 : IVec S2x16000000 1 := cmpi .slt main_arg4 main_v21
  let main_c_9 : IVec S_ 1 := constantI S_ 1 1#1
  let main_v23 : IVec S_ 1 := (fun x v => Host.reduce IntOp.andi x v reducesTo_S2x16000000_S_d0_1 h_S_) main_v22 main_c_9
  let main_v24 : IVec S_ 1 := andi main_v20 main_v23
  let main_c_10 : IVec S_ 32 := constantI S_ 32 0#32
  let main_v25 : IVec S2x250000 32 := broadcastInDim S2x250000 ![] bcast_S_S2x250000 main_c_10
  let main_v26 : IVec S2x250000 1 := cmpi .sge main_arg5 main_v25
  let main_c_11 : IVec S_ 1 := constantI S_ 1 1#1
  let main_v27 : IVec S_ 1 := (fun x v => Host.reduce IntOp.andi x v reducesTo_S2x250000_S_d0_1 h_S_) main_v26 main_c_11
  let main_v28 : IVec S_ 1 := andi main_v24 main_v27
  main_v28

def fn {F : FTy → Type} [FloatOps F] (main_arg0 : FVec F S1000000x1 .f32) (main_arg1 : FVec F S1024 .f32) (main_arg2 : IVec S2x16000000 32) (main_arg3 : IVec S2x16000000 32) (main_arg4 : IVec S2x16000000 32) (main_arg5 : IVec S2x250000 32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_c_2 : IVec S_ 32 := constantI S_ 32 0#32
  let main_v9 : IVec S2x16000000 32 := broadcastInDim S2x16000000 ![] bcast_S_S2x16000000 main_c_2
  let main_v10 : IVec S2x16000000 1 := cmpi .sge main_arg2 main_v9
  let main_c_3 : IVec S_ 1 := constantI S_ 1 1#1
  let main_v11 : IVec S_ 1 := (fun x v => Host.reduce IntOp.andi x v reducesTo_S2x16000000_S_d0_1 h_S_) main_v10 main_c_3
  let main_v12 : IVec S_ 1 := andi main_v8 main_v11
  let main_c_4 : IVec S_ 32 := constantI S_ 32 1000000#32
  let main_v13 : IVec S2x16000000 32 := broadcastInDim S2x16000000 ![] bcast_S_S2x16000000 main_c_4
  let main_v14 : IVec S2x16000000 1 := cmpi .slt main_arg2 main_v13
  let main_c_5 : IVec S_ 1 := constantI S_ 1 1#1
  let main_v15 : IVec S_ 1 := (fun x v => Host.reduce IntOp.andi x v reducesTo_S2x16000000_S_d0_1 h_S_) main_v14 main_c_5
  fn_part1 (F := F) main_arg4 main_arg5 main_v12 main_v15
-- ==== Kernel.lean ====
abbrev S1000000x1 : Shape := ⟨2, ![1000000, 1]⟩
abbrev S1024 : Shape := ⟨1, ![1024]⟩
abbrev S2x16000000 : Shape := ⟨2, ![2, 16000000]⟩
abbrev S2x250000 : Shape := ⟨2, ![2, 250000]⟩
abbrev S1000000 : Shape := ⟨1, ![1000000]⟩
abbrev S_ : Shape := ⟨0, ![]⟩
abbrev S1003520 : Shape := ⟨1, ![1003520]⟩
abbrev S7840x128 : Shape := ⟨2, ![7840, 128]⟩
abbrev S1x16000000 : Shape := ⟨2, ![1, 16000000]⟩
abbrev S16000000 : Shape := ⟨1, ![16000000]⟩
abbrev S1x250000 : Shape := ⟨2, ![1, 250000]⟩
abbrev S250000 : Shape := ⟨1, ![250000]⟩
abbrev S16000000x1 : Shape := ⟨2, ![16000000, 1]⟩
abbrev S1 : Shape := ⟨1, ![1]⟩
abbrev S1x1 : Shape := ⟨2, ![1, 1]⟩
abbrev S250000x1 : Shape := ⟨2, ![250000, 1]⟩
abbrev S784x128 : Shape := ⟨2, ![784, 128]⟩

abbrev nBuf : Space → Nat
  | .hbm => 162
  | .vmem => 16
  | .smem => 0
  | _ => 0

abbrev hbmTy0_0 (i : Nat) : BufTy := match i % 128 with
  | 0 => ⟨S1000000x1, .f32⟩
  | 1 => ⟨S1024, .f32⟩
  | 2 => ⟨S2x16000000, .i32⟩
  | 3 => ⟨S2x16000000, .i32⟩
  | 4 => ⟨S2x16000000, .i32⟩
  | 5 => ⟨S2x250000, .i32⟩
  | 6 => ⟨S1000000, .f32⟩
  | 7 => ⟨S_, .i32⟩
  | 8 => ⟨S_, .f32⟩
  | 9 => ⟨S1003520, .f32⟩
  | 10 => ⟨S7840x128, .f32⟩
  | 11 => ⟨S1x16000000, .i32⟩
  | 12 => ⟨S16000000, .i32⟩
  | 13 => ⟨S1x16000000, .i32⟩
  | 14 => ⟨S16000000, .i32⟩
  | 15 => ⟨S1x16000000, .i32⟩
  | 16 => ⟨S16000000, .i32⟩
  | 17 => ⟨S1x250000, .i32⟩
  | 18 => ⟨S250000, .i32⟩
  | 19 => ⟨S1003520, .f32⟩
  | 20 => ⟨S_, .i32⟩
  | 21 => ⟨S16000000, .i32⟩
  | 22 => ⟨S16000000, .i1⟩
  | 23 => ⟨S_, .i32⟩
  | 24 => ⟨S16000000, .i32⟩
  | 25 => ⟨S16000000, .i32⟩
  | 26 => ⟨S16000000, .i32⟩
  | 27 => ⟨S16000000x1, .i32⟩
  | 28 => ⟨S1, .i32⟩
  | 29 => ⟨S_, .i32⟩
  | 30 => ⟨S16000000x1, .i32⟩
  | 31 => ⟨S16000000x1, .i1⟩
  | 32 => ⟨S1x1, .i32⟩
  | 33 => ⟨S16000000x1, .i32⟩
  | 34 => ⟨S16000000x1, .i1⟩
  | 35 => ⟨S16000000x1, .i1⟩
  | 36 => ⟨S_, .i1⟩
  | 37 => ⟨S16000000, .i1⟩
  | 38 => ⟨S16000000, .f32⟩
  | 39 => ⟨S_, .f32⟩
  | 40 => ⟨S16000000, .f32⟩
  | 41 => ⟨S16000000, .f32⟩
  | 42 => ⟨S_, .i32⟩
  | 43 => ⟨S16000000, .i32⟩
  | 44 => ⟨S16000000, .i1⟩
  | 45 => ⟨S_, .i32⟩
  | 46 => ⟨S16000000, .i32⟩
  | 47 => ⟨S16000000, .i32⟩
  | 48 => ⟨S16000000, .i32⟩
  | 49 => ⟨S16000000x1, .i32⟩
  | 50 => ⟨S1, .i32⟩
  | 51 => ⟨S_, .i32⟩
  | 52 => ⟨S16000000x1, .i32⟩
  | 53 => ⟨S16000000x1, .i1⟩
  | 54 => ⟨S1x1, .i32⟩
  | 55 => ⟨S16000000x1, .i32⟩
  | 56 => ⟨S16000000x1, .i1⟩
  | 57 => ⟨S16000000x1, .i1⟩
  | 58 => ⟨S_, .i1⟩
  | 59 => ⟨S16000000, .i1⟩
  | 60 => ⟨S16000000, .f32⟩
  | 61 => ⟨S_, .f32⟩
  | 62 => ⟨S16000000, .f32⟩
  | 63 => ⟨S16000000, .f32⟩
  | 64 => ⟨S16000000, .f32⟩
  | 65 => ⟨S_, .f32⟩
  | 66 => ⟨S1003520, .f32⟩
  | 67 => ⟨S16000000x1, .i32⟩
  | 68 => ⟨S1003520, .f32⟩
  | 69 => ⟨S_, .f32⟩
  | 70 => ⟨S1003520, .f32⟩
  | 71 => ⟨S_, .i32⟩
  | 72 => ⟨S250000, .i32⟩
  | 73 => ⟨S250000, .i1⟩
  | 74 => ⟨S_, .i32⟩
  | 75 => ⟨S250000, .i32⟩
  | 76 => ⟨S250000, .i32⟩
  | 77 => ⟨S250000, .i32⟩
  | 78 => ⟨S250000x1, .i32⟩
  | 79 => ⟨S_, .f32⟩
  | 80 => ⟨S250000, .f32⟩
  | 81 => ⟨S1003520, .f32⟩
  | 82 => ⟨S7840x128, .f32⟩
  | 83 => ⟨S7840x128, .f32⟩
  | 84 => ⟨S7840x128, .f32⟩
  | 85 => ⟨S1x16000000, .i32⟩
  | 86 => ⟨S16000000, .i32⟩
  | 87 => ⟨S1x16000000, .i32⟩
  | 88 => ⟨S16000000, .i32⟩
  | 89 => ⟨S1x16000000, .i32⟩
  | 90 => ⟨S16000000, .i32⟩
  | 91 => ⟨S1x250000, .i32⟩
  | 92 => ⟨S250000, .i32⟩
  | 93 => ⟨S1003520, .f32⟩
  | 94 => ⟨S_, .i32⟩
  | 95 => ⟨S16000000, .i32⟩
  | 96 => ⟨S16000000, .i1⟩
  | 97 => ⟨S_, .i32⟩
  | 98 => ⟨S16000000, .i32⟩
  | 99 => ⟨S16000000, .i32⟩
  | 100 => ⟨S16000000, .i32⟩
  | 101 => ⟨S16000000x1, .i32⟩
  | 102 => ⟨S1, .i32⟩
  | 103 => ⟨S_, .i32⟩
  | 104 => ⟨S16000000x1, .i32⟩
  | 105 => ⟨S16000000x1, .i1⟩
  | 106 => ⟨S1x1, .i32⟩
  | 107 => ⟨S16000000x1, .i32⟩
  | 108 => ⟨S16000000x1, .i1⟩
  | 109 => ⟨S16000000x1, .i1⟩
  | 110 => ⟨S_, .i1⟩
  | 111 => ⟨S16000000, .i1⟩
  | 112 => ⟨S16000000, .f32⟩
  | 113 => ⟨S_, .f32⟩
  | 114 => ⟨S16000000, .f32⟩
  | 115 => ⟨S16000000, .f32⟩
  | 116 => ⟨S_, .i32⟩
  | 117 => ⟨S16000000, .i32⟩
  | 118 => ⟨S16000000, .i1⟩
  | 119 => ⟨S_, .i32⟩
  | 120 => ⟨S16000000, .i32⟩
  | 121 => ⟨S16000000, .i32⟩
  | 122 => ⟨S16000000, .i32⟩
  | 123 => ⟨S16000000x1, .i32⟩
  | 124 => ⟨S1, .i32⟩
  | 125 => ⟨S_, .i32⟩
  | 126 => ⟨S16000000x1, .i32⟩
  | 127 => ⟨S16000000x1, .i1⟩
  | _ => ⟨S1000000x1, .f32⟩

abbrev hbmTy0_1 (i : Nat) : BufTy := match i % 128 with
  | 0 => ⟨S1x1, .i32⟩
  | 1 => ⟨S16000000x1, .i32⟩
  | 2 => ⟨S16000000x1, .i1⟩
  | 3 => ⟨S16000000x1, .i1⟩
  | 4 => ⟨S_, .i1⟩
  | 5 => ⟨S16000000, .i1⟩
  | 6 => ⟨S16000000, .f32⟩
  | 7 => ⟨S_, .f32⟩
  | 8 => ⟨S16000000, .f32⟩
  | 9 => ⟨S16000000, .f32⟩
  | 10 => ⟨S16000000, .f32⟩
  | 11 => ⟨S_, .f32⟩
  | 12 => ⟨S1003520, .f32⟩
  | 13 => ⟨S16000000x1, .i32⟩
  | 14 => ⟨S1003520, .f32⟩
  | 15 => ⟨S_, .f32⟩
  | 16 => ⟨S1003520, .f32⟩
  | 17 => ⟨S_, .i32⟩
  | 18 => ⟨S250000, .i32⟩
  | 19 => ⟨S250000, .i1⟩
  | 20 => ⟨S_, .i32⟩
  | 21 => ⟨S250000, .i32⟩
  | 22 => ⟨S250000, .i32⟩
  | 23 => ⟨S250000, .i32⟩
  | 24 => ⟨S250000x1, .i32⟩
  | 25 => ⟨S_, .f32⟩
  | 26 => ⟨S250000, .f32⟩
  | 27 => ⟨S1003520, .f32⟩
  | 28 => ⟨S7840x128, .f32⟩
  | 29 => ⟨S7840x128, .f32⟩
  | 30 => ⟨S7840x128, .f32⟩
  | 31 => ⟨S1003520, .f32⟩
  | 32 => ⟨S1000000, .f32⟩
  | 33 => ⟨S1000000x1, .f32⟩
  | _ => ⟨S1000000x1, .f32⟩

abbrev hbmTy (i : Nat) : BufTy := match i / 128 with
  | 0 => hbmTy0_0 i
  | 1 => hbmTy0_1 i
  | _ => ⟨S1000000x1, .f32⟩

abbrev bufTy : (tb : Table) → Fin (tcTables nBuf tb) → BufTy
  | .hbm, ⟨i, _⟩ => hbmTy i
  | .local _ .vmem, ⟨0, _⟩ => ⟨S784x128, .f32⟩
  | .local _ .vmem, ⟨1, _⟩ => ⟨S784x128, .f32⟩
  | .local _ .vmem, ⟨2, _⟩ => ⟨S784x128, .f32⟩
  | .local _ .vmem, ⟨3, _⟩ => ⟨S784x128, .f32⟩
  | .local _ .vmem, ⟨4, _⟩ => ⟨S784x128, .f32⟩
  | .local _ .vmem, ⟨5, _⟩ => ⟨S784x128, .f32⟩
  | .local _ .vmem, ⟨6, _⟩ => ⟨S784x128, .f32⟩
  | .local _ .vmem, ⟨7, _⟩ => ⟨S784x128, .f32⟩
  | .local _ .vmem, ⟨8, _⟩ => ⟨S784x128, .f32⟩
  | .local _ .vmem, ⟨9, _⟩ => ⟨S784x128, .f32⟩
  | .local _ .vmem, ⟨10, _⟩ => ⟨S784x128, .f32⟩
  | .local _ .vmem, ⟨11, _⟩ => ⟨S784x128, .f32⟩
  | .local _ .vmem, ⟨12, _⟩ => ⟨S784x128, .f32⟩
  | .local _ .vmem, ⟨13, _⟩ => ⟨S784x128, .f32⟩
  | .local _ .vmem, ⟨14, _⟩ => ⟨S784x128, .f32⟩
  | .local _ .vmem, ⟨15, _⟩ => ⟨S784x128, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_c : Ref sig .tc := ⟨.hbm, 7, rfl⟩
abbrev main_call0_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_call1_c : Ref sig .tc := ⟨.hbm, 20, rfl⟩
abbrev main_call0_call1_v0 : Ref sig .tc := ⟨.hbm, 21, rfl⟩
abbrev main_call0_call1_v1 : Ref sig .tc := ⟨.hbm, 22, rfl⟩
abbrev main_call0_call1_c_0 : Ref sig .tc := ⟨.hbm, 23, rfl⟩
abbrev main_call0_call1_v2 : Ref sig .tc := ⟨.hbm, 24, rfl⟩
abbrev main_call0_call1_v3 : Ref sig .tc := ⟨.hbm, 25, rfl⟩
abbrev main_call0_call1_v4 : Ref sig .tc := ⟨.hbm, 26, rfl⟩
abbrev main_call0_call1_v5 : Ref sig .tc := ⟨.hbm, 27, rfl⟩
abbrev main_call0_call1_c_1 : Ref sig .tc := ⟨.hbm, 28, rfl⟩
abbrev main_call0_call1_c_2 : Ref sig .tc := ⟨.hbm, 29, rfl⟩
abbrev main_call0_call1_v6 : Ref sig .tc := ⟨.hbm, 30, rfl⟩
abbrev main_call0_call1_v7 : Ref sig .tc := ⟨.hbm, 31, rfl⟩
abbrev main_call0_call1_v8 : Ref sig .tc := ⟨.hbm, 32, rfl⟩
abbrev main_call0_call1_v9 : Ref sig .tc := ⟨.hbm, 33, rfl⟩
abbrev main_call0_call1_v10 : Ref sig .tc := ⟨.hbm, 34, rfl⟩
abbrev main_call0_call1_v11 : Ref sig .tc := ⟨.hbm, 35, rfl⟩
abbrev main_call0_call1_c_3 : Ref sig .tc := ⟨.hbm, 36, rfl⟩
abbrev main_call0_call1_v12 : Ref sig .tc := ⟨.hbm, 37, rfl⟩
abbrev main_call0_call1_v13 : Ref sig .tc := ⟨.hbm, 38, rfl⟩
abbrev main_call0_call1_cst : Ref sig .tc := ⟨.hbm, 39, rfl⟩
abbrev main_call0_call1_v14 : Ref sig .tc := ⟨.hbm, 40, rfl⟩
abbrev main_call0_v12 : Ref sig .tc := ⟨.hbm, 41, rfl⟩
abbrev main_call0_call2_c : Ref sig .tc := ⟨.hbm, 42, rfl⟩
abbrev main_call0_call2_v0 : Ref sig .tc := ⟨.hbm, 43, rfl⟩
abbrev main_call0_call2_v1 : Ref sig .tc := ⟨.hbm, 44, rfl⟩
abbrev main_call0_call2_c_0 : Ref sig .tc := ⟨.hbm, 45, rfl⟩
abbrev main_call0_call2_v2 : Ref sig .tc := ⟨.hbm, 46, rfl⟩
abbrev main_call0_call2_v3 : Ref sig .tc := ⟨.hbm, 47, rfl⟩
abbrev main_call0_call2_v4 : Ref sig .tc := ⟨.hbm, 48, rfl⟩
abbrev main_call0_call2_v5 : Ref sig .tc := ⟨.hbm, 49, rfl⟩
abbrev main_call0_call2_c_1 : Ref sig .tc := ⟨.hbm, 50, rfl⟩
abbrev main_call0_call2_c_2 : Ref sig .tc := ⟨.hbm, 51, rfl⟩
abbrev main_call0_call2_v6 : Ref sig .tc := ⟨.hbm, 52, rfl⟩
abbrev main_call0_call2_v7 : Ref sig .tc := ⟨.hbm, 53, rfl⟩
abbrev main_call0_call2_v8 : Ref sig .tc := ⟨.hbm, 54, rfl⟩
abbrev main_call0_call2_v9 : Ref sig .tc := ⟨.hbm, 55, rfl⟩
abbrev main_call0_call2_v10 : Ref sig .tc := ⟨.hbm, 56, rfl⟩
abbrev main_call0_call2_v11 : Ref sig .tc := ⟨.hbm, 57, rfl⟩
abbrev main_call0_call2_c_3 : Ref sig .tc := ⟨.hbm, 58, rfl⟩
abbrev main_call0_call2_v12 : Ref sig .tc := ⟨.hbm, 59, rfl⟩
abbrev main_call0_call2_v13 : Ref sig .tc := ⟨.hbm, 60, rfl⟩
abbrev main_call0_call2_cst : Ref sig .tc := ⟨.hbm, 61, rfl⟩
abbrev main_call0_call2_v14 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_call0_v16 : Ref sig .tc := ⟨.hbm, 67, rfl⟩
abbrev main_call0_v17 : Ref sig .tc := ⟨.hbm, 68, rfl⟩
abbrev main_call0_cst_0 : Ref sig .tc := ⟨.hbm, 69, rfl⟩
abbrev main_call0_v18 : Ref sig .tc := ⟨.hbm, 70, rfl⟩
abbrev main_call0_c_1 : Ref sig .tc := ⟨.hbm, 71, rfl⟩
abbrev main_call0_v19 : Ref sig .tc := ⟨.hbm, 72, rfl⟩
abbrev main_call0_v20 : Ref sig .tc := ⟨.hbm, 73, rfl⟩
abbrev main_call0_c_2 : Ref sig .tc := ⟨.hbm, 74, rfl⟩
abbrev main_call0_v21 : Ref sig .tc := ⟨.hbm, 75, rfl⟩
abbrev main_call0_v22 : Ref sig .tc := ⟨.hbm, 76, rfl⟩
abbrev main_call0_v23 : Ref sig .tc := ⟨.hbm, 77, rfl⟩
abbrev main_call0_v24 : Ref sig .tc := ⟨.hbm, 78, rfl⟩
abbrev main_call0_cst_3 : Ref sig .tc := ⟨.hbm, 79, rfl⟩
abbrev main_call0_v25 : Ref sig .tc := ⟨.hbm, 80, rfl⟩
abbrev main_call0_v26 : Ref sig .tc := ⟨.hbm, 81, rfl⟩
abbrev main_call0_v27 : Ref sig .tc := ⟨.hbm, 82, rfl⟩
abbrev main_call0_v28 : Ref sig .tc := ⟨.hbm, 83, rfl⟩
abbrev main_call0_v29 : Ref sig .tc := ⟨.hbm, 84, rfl⟩
abbrev main_call0_v30 : Ref sig .tc := ⟨.hbm, 85, rfl⟩
abbrev main_call0_v31 : Ref sig .tc := ⟨.hbm, 86, rfl⟩
abbrev main_call0_v32 : Ref sig .tc := ⟨.hbm, 87, rfl⟩
abbrev main_call0_v33 : Ref sig .tc := ⟨.hbm, 88, rfl⟩
abbrev main_call0_v34 : Ref sig .tc := ⟨.hbm, 89, rfl⟩
abbrev main_call0_v35 : Ref sig .tc := ⟨.hbm, 90, rfl⟩
abbrev main_call0_v36 : Ref sig .tc := ⟨.hbm, 91, rfl⟩
abbrev main_call0_v37 : Ref sig .tc := ⟨.hbm, 92, rfl⟩
abbrev main_call0_v38 : Ref sig .tc := ⟨.hbm, 93, rfl⟩
abbrev main_call0_call3_c : Ref sig .tc := ⟨.hbm, 94, rfl⟩
abbrev main_call0_call3_v0 : Ref sig .tc := ⟨.hbm, 95, rfl⟩
abbrev main_call0_call3_v1 : Ref sig .tc := ⟨.hbm, 96, rfl⟩
abbrev main_call0_call3_c_0 : Ref sig .tc := ⟨.hbm, 97, rfl⟩
abbrev main_call0_call3_v2 : Ref sig .tc := ⟨.hbm, 98, rfl⟩
abbrev main_call0_call3_v3 : Ref sig .tc := ⟨.hbm, 99, rfl⟩
abbrev main_call0_call3_v4 : Ref sig .tc := ⟨.hbm, 100, rfl⟩
abbrev main_call0_call3_v5 : Ref sig .tc := ⟨.hbm, 101, rfl⟩
abbrev main_call0_call3_c_1 : Ref sig .tc := ⟨.hbm, 102, rfl⟩
abbrev main_call0_call3_c_2 : Ref sig .tc := ⟨.hbm, 103, rfl⟩
abbrev main_call0_call3_v6 : Ref sig .tc := ⟨.hbm, 104, rfl⟩
abbrev main_call0_call3_v7 : Ref sig .tc := ⟨.hbm, 105, rfl⟩
abbrev main_call0_call3_v8 : Ref sig .tc := ⟨.hbm, 106, rfl⟩
abbrev main_call0_call3_v9 : Ref sig .tc := ⟨.hbm, 107, rfl⟩
abbrev main_call0_call3_v10 : Ref sig .tc := ⟨.hbm, 108, rfl⟩
abbrev main_call0_call3_v11 : Ref sig .tc := ⟨.hbm, 109, rfl⟩
abbrev main_call0_call3_c_3 : Ref sig .tc := ⟨.hbm, 110, rfl⟩
abbrev main_call0_call3_v12 : Ref sig .tc := ⟨.hbm, 111, rfl⟩
abbrev main_call0_call3_v13 : Ref sig .tc := ⟨.hbm, 112, rfl⟩
abbrev main_call0_call3_cst : Ref sig .tc := ⟨.hbm, 113, rfl⟩
abbrev main_call0_call3_v14 : Ref sig .tc := ⟨.hbm, 114, rfl⟩
abbrev main_call0_v39 : Ref sig .tc := ⟨.hbm, 115, rfl⟩
abbrev main_call0_call4_c : Ref sig .tc := ⟨.hbm, 116, rfl⟩
abbrev main_call0_call4_v0 : Ref sig .tc := ⟨.hbm, 117, rfl⟩
abbrev main_call0_call4_v1 : Ref sig .tc := ⟨.hbm, 118, rfl⟩
abbrev main_call0_call4_c_0 : Ref sig .tc := ⟨.hbm, 119, rfl⟩
abbrev main_call0_call4_v2 : Ref sig .tc := ⟨.hbm, 120, rfl⟩
abbrev main_call0_call4_v3 : Ref sig .tc := ⟨.hbm, 121, rfl⟩
abbrev main_call0_call4_v4 : Ref sig .tc := ⟨.hbm, 122, rfl⟩
abbrev main_call0_call4_v5 : Ref sig .tc := ⟨.hbm, 123, rfl⟩
abbrev main_call0_call4_c_1 : Ref sig .tc := ⟨.hbm, 124, rfl⟩
abbrev main_call0_call4_c_2 : Ref sig .tc := ⟨.hbm, 125, rfl⟩
abbrev main_call0_call4_v6 : Ref sig .tc := ⟨.hbm, 126, rfl⟩
abbrev main_call0_call4_v7 : Ref sig .tc := ⟨.hbm, 127, rfl⟩
abbrev main_call0_call4_v8 : Ref sig .tc := ⟨.hbm, 128, rfl⟩
abbrev main_call0_call4_v9 : Ref sig .tc := ⟨.hbm, 129, rfl⟩
abbrev main_call0_call4_v10 : Ref sig .tc := ⟨.hbm, 130, rfl⟩
abbrev main_call0_call4_v11 : Ref sig .tc := ⟨.hbm, 131, rfl⟩
abbrev main_call0_call4_c_3 : Ref sig .tc := ⟨.hbm, 132, rfl⟩
abbrev main_call0_call4_v12 : Ref sig .tc := ⟨.hbm, 133, rfl⟩
abbrev main_call0_call4_v13 : Ref sig .tc := ⟨.hbm, 134, rfl⟩
abbrev main_call0_call4_cst : Ref sig .tc := ⟨.hbm, 135, rfl⟩
abbrev main_call0_call4_v14 : Ref sig .tc := ⟨.hbm, 136, rfl⟩
abbrev main_call0_v40 : Ref sig .tc := ⟨.hbm, 137, rfl⟩
abbrev main_call0_v41 : Ref sig .tc := ⟨.hbm, 138, rfl⟩
abbrev main_call0_cst_4 : Ref sig .tc := ⟨.hbm, 139, rfl⟩
abbrev main_call0_v42 : Ref sig .tc := ⟨.hbm, 140, rfl⟩
abbrev main_call0_v43 : Ref sig .tc := ⟨.hbm, 141, rfl⟩
abbrev main_call0_v44 : Ref sig .tc := ⟨.hbm, 142, rfl⟩
abbrev main_call0_cst_5 : Ref sig .tc := ⟨.hbm, 143, rfl⟩
abbrev main_call0_v45 : Ref sig .tc := ⟨.hbm, 144, rfl⟩
abbrev main_call0_c_6 : Ref sig .tc := ⟨.hbm, 145, rfl⟩
abbrev main_call0_v46 : Ref sig .tc := ⟨.hbm, 146, rfl⟩
abbrev main_call0_v47 : Ref sig .tc := ⟨.hbm, 147, rfl⟩
abbrev main_call0_c_7 : Ref sig .tc := ⟨.hbm, 148, rfl⟩
abbrev main_call0_v48 : Ref sig .tc := ⟨.hbm, 149, rfl⟩
abbrev main_call0_v49 : Ref sig .tc := ⟨.hbm, 150, rfl⟩
abbrev main_call0_v50 : Ref sig .tc := ⟨.hbm, 151, rfl⟩
abbrev main_call0_v51 : Ref sig .tc := ⟨.hbm, 152, rfl⟩
abbrev main_call0_cst_8 : Ref sig .tc := ⟨.hbm, 153, rfl⟩
abbrev main_call0_v52 : Ref sig .tc := ⟨.hbm, 154, rfl⟩
abbrev main_call0_v53 : Ref sig .tc := ⟨.hbm, 155, rfl⟩
abbrev main_call0_v54 : Ref sig .tc := ⟨.hbm, 156, rfl⟩
abbrev main_call0_v55 : Ref sig .tc := ⟨.hbm, 157, rfl⟩
abbrev main_call0_v56 : Ref sig .tc := ⟨.hbm, 158, rfl⟩
abbrev main_call0_v57 : Ref sig .tc := ⟨.hbm, 159, rfl⟩
abbrev main_call0_v58 : Ref sig .tc := ⟨.hbm, 160, rfl⟩
abbrev main_v0 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S784x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S784x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S784x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S784x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S784x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S784x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S784x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S784x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1000000x1_S1000000 : S1000000x1.ShapeCasts S1000000
  pads_S1000000_S1003520_035200 : S1000000.Pads (![0] : Fin 1 → Nat) ![3520] ![0] S1003520
  h_S_ : 0 < S_.numel
  shapeCasts_S1003520_S7840x128 : S1003520.ShapeCasts S7840x128
  slices_S2x16000000_S1x16000000_0_0 : S2x16000000.Slices ![0, 0] S1x16000000
  shapeCasts_S1x16000000_S16000000 : S1x16000000.ShapeCasts S16000000
  slices_S2x250000_S1x250000_0_0 : S2x250000.Slices ![0, 0] S1x250000
  shapeCasts_S1x250000_S250000 : S1x250000.ShapeCasts S250000
  shapeCasts_S7840x128_S1003520 : S7840x128.ShapeCasts S1003520
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S16000000x1 : S_.BroadcastsInDim S16000000x1 (![] : Fin 0 → Fin S16000000x1.rank)
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  reducesTo_S16000000x1_S16000000_d1 : S16000000x1.ReducesTo [1] S16000000
  bcast_S_S1003520 : S_.BroadcastsInDim S1003520 (![] : Fin 0 → Fin S1003520.rank)
  bcast_S_S250000 : S_.BroadcastsInDim S250000 (![] : Fin 0 → Fin S250000.rank)
  bcast_S250000_S250000x1_0 : S250000.BroadcastsInDim S250000x1 (![0] : Fin 1 → Fin S250000x1.rank)
  slices_S2x16000000_S1x16000000_1_0 : S2x16000000.Slices ![1, 0] S1x16000000
  slices_S2x250000_S1x250000_1_0 : S2x250000.Slices ![1, 0] S1x250000
  slices_S1003520_S1000000_0 : S1003520.Slices ![0] S1000000
  bcast_S1000000_S1000000x1_0 : S1000000.BroadcastsInDim S1000000x1 (![0] : Fin 1 → Fin S1000000x1.rank)
  inb_S784x128_S784x128_0_0 : ∀ a, (![0, 0] : Fin 2 → Nat) a + S784x128.size a ≤ S784x128.size a
  h_S784x128 : 0 < S784x128.numel
  shapeCasts_S784x128_S784x128 : S784x128.ShapeCasts S784x128
  gather_S1003520_S16000000x1_S16000000_n_0_n_n_0_1_1_wf : GatherDims.WF S1003520 S16000000x1 S16000000 [] [0] [] [0] [] 1 ![1]
  gather_S1024_S16000000x1_S16000000_n_0_n_n_0_1_1_wf : GatherDims.WF S1024 S16000000x1 S16000000 [] [0] [] [0] [] 1 ![1]
  scatter_S1003520_S16000000x1_S16000000_n_0_0_1_wf : ScatterDims.WF S1003520 S16000000x1 S16000000 [] [0] [0] 1
  scatter_S1003520_S250000x1_S250000_n_0_0_1_wf : ScatterDims.WF S1003520 S250000x1 S250000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S784x128.size a ≤ S7840x128.size a
  hwx0_0 : ∀ i : grid0.Coords, EltTy.bits .f32 = 32 ∨ (Rect.block (s := S7840x128) S784x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S784x128.size a ≤ S7840x128.size a
  hwx0_1 : ∀ i : grid0.Coords, EltTy.bits .f32 = 32 ∨ (Rect.block (s := S7840x128) S784x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S784x128.size a ≤ S7840x128.size a
  hwx0_2 : ∀ i : grid0.Coords, EltTy.bits .f32 = 32 ∨ (Rect.block (s := S7840x128) S784x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S784x128.size a ≤ S7840x128.size a
  hwx0_3 : ∀ i : grid0.Coords, EltTy.bits .f32 = 32 ∨ (Rect.block (s := S7840x128) S784x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S784x128.size a ≤ S7840x128.size a
  hwx1_0 : ∀ i : grid1.Coords, EltTy.bits .f32 = 32 ∨ (Rect.block (s := S7840x128) S784x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S784x128.size a ≤ S7840x128.size a
  hwx1_1 : ∀ i : grid1.Coords, EltTy.bits .f32 = 32 ∨ (Rect.block (s := S7840x128) S784x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S784x128.size a ≤ S7840x128.size a
  hwx1_2 : ∀ i : grid1.Coords, EltTy.bits .f32 = 32 ∨ (Rect.block (s := S7840x128) S784x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S784x128.size a ≤ S7840x128.size a
  hwx1_3 : ∀ i : grid1.Coords, EltTy.bits .f32 = 32 ∨ (Rect.block (s := S7840x128) S784x128.size (cc1_transform_3 i) (hinb1_3 i)).WholeWords (EltTy.packing .f32)

variable [Facts₀]

def gather_S1003520_S16000000x1_S16000000_n_0_n_n_0_1_1 : GatherDims S1003520 S16000000x1 S16000000 where
  offsetDims := []
  collapsedSliceDims := [0]
  operandBatchingDims := []
  startIndicesBatchingDims := []
  startIndexMap := [0]
  indexVectorDim := 1
  sliceSizes := ![1]
  wf := gather_S1003520_S16000000x1_S16000000_n_0_n_n_0_1_1_wf
def gather_S1024_S16000000x1_S16000000_n_0_n_n_0_1_1 : GatherDims S1024 S16000000x1 S16000000 where
  offsetDims := []
  collapsedSliceDims := [0]
  operandBatchingDims := []
  startIndicesBatchingDims := []
  startIndexMap := [0]
  indexVectorDim := 1
  sliceSizes := ![1]
  wf := gather_S1024_S16000000x1_S16000000_n_0_n_n_0_1_1_wf
def scatter_S1003520_S16000000x1_S16000000_n_0_0_1 : ScatterDims S1003520 S16000000x1 S16000000 where
  updateWindowDims := []
  insertedWindowDims := [0]
  scatterDimsToOperandDims := [0]
  indexVectorDim := 1
  wf := scatter_S1003520_S16000000x1_S16000000_n_0_0_1_wf
def scatter_S1003520_S250000x1_S250000_n_0_0_1 : ScatterDims S1003520 S250000x1 S250000 where
  updateWindowDims := []
  insertedWindowDims := [0]
  scatterDimsToOperandDims := [0]
  indexVectorDim := 1
  wf := scatter_S1003520_S250000x1_S250000_n_0_0_1_wf

abbrev win0_0 : Pipeline.Window sig grid0 :=
  Pipeline.Window.ofSpec (Memref.whole main_call0_v2) S784x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v28) S784x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v27) S784x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v29) S784x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v29) S784x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v55) S784x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v54) S784x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v56) S784x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000x1 : Shape := ⟨2, ![1000000, 1]⟩
abbrev S1024 : Shape := ⟨1, ![1024]⟩
abbrev S2x16000000 : Shape := ⟨2, ![2, 16000000]⟩
abbrev S2x250000 : Shape := ⟨2, ![2, 250000]⟩
abbrev S1x250000 : Shape := ⟨2, ![1, 250000]⟩
abbrev S250000 : Shape := ⟨1, ![250000]⟩
abbrev S_ : Shape := ⟨0, ![]⟩
abbrev S250000x1 : Shape := ⟨2, ![250000, 1]⟩
abbrev S1x16000000 : Shape := ⟨2, ![1, 16000000]⟩
abbrev S16000000 : Shape := ⟨1, ![16000000]⟩
abbrev S16000000x1 : Shape := ⟨2, ![16000000, 1]⟩

abbrev nBuf : Space → Nat
  | .hbm => 95
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S1024, .f32⟩
  | .hbm, ⟨2, _⟩ => ⟨S2x16000000, .i32⟩
  | .hbm, ⟨3, _⟩ => ⟨S2x16000000, .i32⟩
  | .hbm, ⟨4, _⟩ => ⟨S2x16000000, .i32⟩
  | .hbm, ⟨5, _⟩ => ⟨S2x250000, .i32⟩
  | .hbm, ⟨6, _⟩ => ⟨S1x250000, .i32⟩
  | .hbm, ⟨7, _⟩ => ⟨S250000, .i32⟩
  | .hbm, ⟨8, _⟩ => ⟨S_, .i32⟩
  | .hbm, ⟨9, _⟩ => ⟨S250000, .i32⟩
  | .hbm, ⟨10, _⟩ => ⟨S250000, .i1⟩
  | .hbm, ⟨11, _⟩ => ⟨S_, .i32⟩
  | .hbm, ⟨12, _⟩ => ⟨S250000, .i32⟩
  | .hbm, ⟨13, _⟩ => ⟨S250000, .i32⟩
  | .hbm, ⟨14, _⟩ => ⟨S250000, .i32⟩
  | .hbm, ⟨15, _⟩ => ⟨S250000x1, .i32⟩
  | .hbm, ⟨16, _⟩ => ⟨S_, .f32⟩
  | .hbm, ⟨17, _⟩ => ⟨S250000x1, .f32⟩
  | .hbm, ⟨18, _⟩ => ⟨S1000000x1, .f32⟩
  | .hbm, ⟨19, _⟩ => ⟨S1x16000000, .i32⟩
  | .hbm, ⟨20, _⟩ => ⟨S16000000, .i32⟩
  | .hbm, ⟨21, _⟩ => ⟨S_, .i32⟩
  | .hbm, ⟨22, _⟩ => ⟨S16000000, .i32⟩
  | .hbm, ⟨23, _⟩ => ⟨S16000000, .i1⟩
  | .hbm, ⟨24, _⟩ => ⟨S_, .i32⟩
  | .hbm, ⟨25, _⟩ => ⟨S16000000, .i32⟩
  | .hbm, ⟨26, _⟩ => ⟨S16000000, .i32⟩
  | .hbm, ⟨27, _⟩ => ⟨S16000000, .i32⟩
  | .hbm, ⟨28, _⟩ => ⟨S16000000x1, .i32⟩
  | .hbm, ⟨29, _⟩ => ⟨S16000000x1, .f32⟩
  | .hbm, ⟨30, _⟩ => ⟨S1x16000000, .i32⟩
  | .hbm, ⟨31, _⟩ => ⟨S16000000, .i32⟩
  | .hbm, ⟨32, _⟩ => ⟨S_, .i32⟩
  | .hbm, ⟨33, _⟩ => ⟨S16000000, .i32⟩
  | .hbm, ⟨34, _⟩ => ⟨S16000000, .i1⟩
  | .hbm, ⟨35, _⟩ => ⟨S_, .i32⟩
  | .hbm, ⟨36, _⟩ => ⟨S16000000, .i32⟩
  | .hbm, ⟨37, _⟩ => ⟨S16000000, .i32⟩
  | .hbm, ⟨38, _⟩ => ⟨S16000000, .i32⟩
  | .hbm, ⟨39, _⟩ => ⟨S16000000x1, .i32⟩
  | .hbm, ⟨40, _⟩ => ⟨S16000000, .f32⟩
  | .hbm, ⟨41, _⟩ => ⟨S16000000x1, .f32⟩
  | .hbm, ⟨42, _⟩ => ⟨S16000000x1, .f32⟩
  | .hbm, ⟨43, _⟩ => ⟨S1x16000000, .i32⟩
  | .hbm, ⟨44, _⟩ => ⟨S16000000, .i32⟩
  | .hbm, ⟨45, _⟩ => ⟨S_, .f32⟩
  | .hbm, ⟨46, _⟩ => ⟨S1000000x1, .f32⟩
  | .hbm, ⟨47, _⟩ => ⟨S16000000x1, .i32⟩
  | .hbm, ⟨48, _⟩ => ⟨S1000000x1, .f32⟩
  | .hbm, ⟨49, _⟩ => ⟨S1000000x1, .f32⟩
  | .hbm, ⟨50, _⟩ => ⟨S1x250000, .i32⟩
  | .hbm, ⟨51, _⟩ => ⟨S250000, .i32⟩
  | .hbm, ⟨52, _⟩ => ⟨S_, .i32⟩
  | .hbm, ⟨53, _⟩ => ⟨S250000, .i32⟩
  | .hbm, ⟨54, _⟩ => ⟨S250000, .i1⟩
  | .hbm, ⟨55, _⟩ => ⟨S_, .i32⟩
  | .hbm, ⟨56, _⟩ => ⟨S250000, .i32⟩
  | .hbm, ⟨57, _⟩ => ⟨S250000, .i32⟩
  | .hbm, ⟨58, _⟩ => ⟨S250000, .i32⟩
  | .hbm, ⟨59, _⟩ => ⟨S250000x1, .i32⟩
  | .hbm, ⟨60, _⟩ => ⟨S_, .f32⟩
  | .hbm, ⟨61, _⟩ => ⟨S250000x1, .f32⟩
  | .hbm, ⟨62, _⟩ => ⟨S1000000x1, .f32⟩
  | .hbm, ⟨63, _⟩ => ⟨S1x16000000, .i32⟩
  | .hbm, ⟨64, _⟩ => ⟨S16000000, .i32⟩
  | .hbm, ⟨65, _⟩ => ⟨S_, .i32⟩
  | .hbm, ⟨66, _⟩ => ⟨S16000000, .i32⟩
  | .hbm, ⟨67, _⟩ => ⟨S16000000, .i1⟩
  | .hbm, ⟨68, _⟩ => ⟨S_, .i32⟩
  | .hbm, ⟨69, _⟩ => ⟨S16000000, .i32⟩
  | .hbm, ⟨70, _⟩ => ⟨S16000000, .i32⟩
  | .hbm, ⟨71, _⟩ => ⟨S16000000, .i32⟩
  | .hbm, ⟨72, _⟩ => ⟨S16000000x1, .i32⟩
  | .hbm, ⟨73, _⟩ => ⟨S16000000x1, .f32⟩
  | .hbm, ⟨74, _⟩ => ⟨S1x16000000, .i32⟩
  | .hbm, ⟨75, _⟩ => ⟨S16000000, .i32⟩
  | .hbm, ⟨76, _⟩ => ⟨S_, .i32⟩
  | .hbm, ⟨77, _⟩ => ⟨S16000000, .i32⟩
  | .hbm, ⟨78, _⟩ => ⟨S16000000, .i1⟩
  | .hbm, ⟨79, _⟩ => ⟨S_, .i32⟩
  | .hbm, ⟨80, _⟩ => ⟨S16000000, .i32⟩
  | .hbm, ⟨81, _⟩ => ⟨S16000000, .i32⟩
  | .hbm, ⟨82, _⟩ => ⟨S16000000, .i32⟩
  | .hbm, ⟨83, _⟩ => ⟨S16000000x1, .i32⟩
  | .hbm, ⟨84, _⟩ => ⟨S16000000, .f32⟩
  | .hbm, ⟨85, _⟩ => ⟨S16000000x1, .f32⟩
  | .hbm, ⟨86, _⟩ => ⟨S16000000x1, .f32⟩
  | .hbm, ⟨87, _⟩ => ⟨S1x16000000, .i32⟩
  | .hbm, ⟨88, _⟩ => ⟨S16000000, .i32⟩
  | .hbm, ⟨89, _⟩ => ⟨S_, .f32⟩
  | .hbm, ⟨90, _⟩ => ⟨S1000000x1, .f32⟩
  | .hbm, ⟨91, _⟩ => ⟨S16000000x1, .i32⟩
  | .hbm, ⟨92, _⟩ => ⟨S1000000x1, .f32⟩
  | .hbm, ⟨93, _⟩ => ⟨S1000000x1, .f32⟩
  | .hbm, ⟨94, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_c_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_11 : Ref sig .tc := ⟨.hbm, 76, rfl⟩
abbrev main_v57 : Ref sig .tc := ⟨.hbm, 77, rfl⟩
abbrev main_v58 : Ref sig .tc := ⟨.hbm, 78, rfl⟩
abbrev main_c_12 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]

class Facts₀ : Prop where
  slices_S2x250000_S1x250000_0_0 : S2x250000.Slices ![0, 0] S1x250000
  shapeCasts_S1x250000_S250000 : S1x250000.ShapeCasts S250000
  bcast_S_S250000 : S_.BroadcastsInDim S250000 (![] : Fin 0 → Fin S250000.rank)
  bcast_S250000_S250000x1_0 : S250000.BroadcastsInDim S250000x1 (![0] : Fin 1 → Fin S250000x1.rank)
  bcast_S_S250000x1 : S_.BroadcastsInDim S250000x1 (![] : Fin 0 → Fin S250000x1.rank)
  slices_S2x16000000_S1x16000000_0_0 : S2x16000000.Slices ![0, 0] S1x16000000
  shapeCasts_S1x16000000_S16000000 : S1x16000000.ShapeCasts S16000000
  bcast_S_S16000000 : S_.BroadcastsInDim S16000000 (![] : Fin 0 → Fin S16000000.rank)
  bcast_S16000000_S16000000x1_0 : S16000000.BroadcastsInDim S16000000x1 (![0] : Fin 1 → Fin S16000000x1.rank)
  bcast_S_S1000000x1 : S_.BroadcastsInDim S1000000x1 (![] : Fin 0 → Fin S1000000x1.rank)
  slices_S2x250000_S1x250000_1_0 : S2x250000.Slices ![1, 0] S1x250000
  slices_S2x16000000_S1x16000000_1_0 : S2x16000000.Slices ![1, 0] S1x16000000
  scatter_S1000000x1_S250000x1_S250000x1_1_0_0_1_wf : ScatterDims.WF S1000000x1 S250000x1 S250000x1 [1] [0] [0] 1
  gather_S1000000x1_S16000000x1_S16000000x1_1_0_n_n_0_1_11_wf : GatherDims.WF S1000000x1 S16000000x1 S16000000x1 [1] [0] [] [0] [] 1 ![1, 1]
  gather_S1024_S16000000x1_S16000000_n_0_n_n_0_1_1_wf : GatherDims.WF S1024 S16000000x1 S16000000 [] [0] [] [0] [] 1 ![1]
  scatter_S1000000x1_S16000000x1_S16000000x1_1_0_0_1_wf : ScatterDims.WF S1000000x1 S16000000x1 S16000000x1 [1] [0] [0] 1

variable [Facts₀]

def scatter_S1000000x1_S250000x1_S250000x1_1_0_0_1 : ScatterDims S1000000x1 S250000x1 S250000x1 where
  updateWindowDims := [1]
  insertedWindowDims := [0]
  scatterDimsToOperandDims := [0]
  indexVectorDim := 1
  wf := scatter_S1000000x1_S250000x1_S250000x1_1_0_0_1_wf
def gather_S1000000x1_S16000000x1_S16000000x1_1_0_n_n_0_1_11 : GatherDims S1000000x1 S16000000x1 S16000000x1 where
  offsetDims := [1]
  collapsedSliceDims := [0]
  operandBatchingDims := []
  startIndicesBatchingDims := []
  startIndexMap := [0]
  indexVectorDim := 1
  sliceSizes := ![1, 1]
  wf := gather_S1000000x1_S16000000x1_S16000000x1_1_0_n_n_0_1_11_wf
def gather_S1024_S16000000x1_S16000000_n_0_n_n_0_1_1 : GatherDims S1024 S16000000x1 S16000000 where
  offsetDims := []
  collapsedSliceDims := [0]
  operandBatchingDims := []
  startIndicesBatchingDims := []
  startIndexMap := [0]
  indexVectorDim := 1
  sliceSizes := ![1]
  wf := gather_S1024_S16000000x1_S16000000_n_0_n_n_0_1_1_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf

class Facts : Prop extends Facts₀ where

variable [Facts]
-- ==== Proof.Spec.lean ====
/-
  The mathematics both programs compute, stated once over plain functions.

  A network state is a function from node numbers to extended reals. One message-passing layer sends, along every
  edge e, the source node's value times the edge's scalar weight to the destination node; a node's new value is its
  old value (zero if the node is one of the layer's targets) plus the activation of the sum of the messages that
  arrive at it. Edges, weights and targets are given by their integer index lists, read as signed integers: an edge
  whose destination is no node number contributes nowhere, and a target that is no node number zeroes nothing.

  Two states that agree on the node numbers below N give layers that agree below N, provided every edge's source
  is below N: a layer reads the old state only at the node itself and at the sources.
-/
import Idealize.ShloMosaic.PureOps.Ideal
import Idealize.ShloMosaic.Lib.ValueIdx

noncomputable section

open scoped BigOperators

namespace Cert.Spec

open Idealize.ShloMosaic Idealize.ShloMosaic.ValueIdx

/-- One layer read at node `i`: the old value, zeroed at a target, plus the activation of the sum over the edges
    into `i` of source value times weight. -/
def layer (act : EReal → EReal) {E T : ℕ} (X w : ℕ → EReal) (u v wi : Fin E → ℤ) (tg : Fin T → ℤ) (i : ℕ) : EReal :=
  (if ∃ k, tg k = (i : ℤ) then 0 else X i)
    + act (0 + ∑ e : Fin E, if v e = (i : ℤ) then X (u e).toNat * w (wi e).toNat else 0)

/-- A layer below `N` depends on the old state only below `N`, when every edge's source is below `N`. -/
theorem layer_congr (act : EReal → EReal) {E T : ℕ} {X X' : ℕ → EReal} (w : ℕ → EReal) (u v wi : Fin E → ℤ)
    (tg : Fin T → ℤ) (N : ℕ) (hX : ∀ n, n < N → X n = X' n) (hu : ∀ e, 0 ≤ u e ∧ u e < (N : ℤ)) (i : ℕ)
    (hi : i < N) : layer act X w u v wi tg i = layer act X' w u v wi tg i := by
  unfold layer
  rw [hX i hi]
  congr 3
  refine Finset.sum_congr rfl fun e _ => ?_
  rw [hX (u e).toNat (by have := hu e; omega)]

/-! ## Arrays read as functions of a node number -/

/-- A column `[n, 1]` as a function of the row number (zero past the end). -/
def colFun {n : ℕ} (X : (⟨2, ![n, 1]⟩ : Shape).Idx → EReal) : ℕ → EReal :=
  fun p => if h : p < n then X (ix2 ⟨p, h⟩ (0 : Fin 1)) else 0

/-- A vector `[n]` as a function of the position (zero past the end). -/
def vecFun {n : ℕ} (X : (⟨1, ![n]⟩ : Shape).Idx → EReal) : ℕ → EReal :=
  fun p => if h : p < n then X (ix1 ⟨p, h⟩) else 0

/-- A matrix `[a, b]` read in row-major order as a function of the flat position (zero past the end). -/
def flatFun {a b : ℕ} (hb : 0 < b) (X : (⟨2, ![a, b]⟩ : Shape).Idx → EReal) : ℕ → EReal :=
  fun p => if h : p < a * b then
    X (ix2 ⟨p / b, (Nat.div_lt_iff_lt_mul hb).2 h⟩ ⟨p % b, Nat.mod_lt _ hb⟩) else 0

/-- Row `l` of a `[2, n]` table of 32-bit words, read signed. -/
def rowInt {n : ℕ} (l : Fin 2) (a : (⟨2, ![2, n]⟩ : Shape).Idx → BitVec 32) : Fin n → ℤ :=
  fun e => (a (ix2 l e)).toInt

theorem colFun_of_lt {n : ℕ} (X : (⟨2, ![n, 1]⟩ : Shape).Idx → EReal) (p : ℕ) (h : p < n) :
    colFun X p = X (ix2 ⟨p, h⟩ (0 : Fin 1)) := dif_pos h

theorem vecFun_of_lt {n : ℕ} (X : (⟨1, ![n]⟩ : Shape).Idx → EReal) (p : ℕ) (h : p < n) :
    vecFun X p = X (ix1 ⟨p, h⟩) := dif_pos h

theorem flatFun_of_lt {a b : ℕ} (hb : 0 < b) (X : (⟨2, ![a, b]⟩ : Shape).Idx → EReal) (p : ℕ) (h : p < a * b) :
    flatFun hb X p = X (ix2 ⟨p / b, (Nat.div_lt_iff_lt_mul hb).2 h⟩ ⟨p % b, Nat.mod_lt _ hb⟩) := dif_pos h

end Cert.Spec

end
-- ==== Proof.PreBounds.lean ====
/-
  What the precondition says of the integer inputs.

  The precondition is a conjunction of whole-array tests, each an and-reduction of an elementwise comparison; when the
  whole conjunction is 1, every comparison is 1 at every element. For the index tables this says: every edge source
  lies in [0, 1000000), every edge weight number in [0, 1024), and every target is nonnegative, the words read as
  signed integers.
-/
import proofs.«422089_j55628416417928_3_alg».proof.Proof.Gen.Pre_finite_inputs
import proofs.«422089_j55628416417928_3_alg».proof.Proof.Spec
import Idealize.ShloMosaic.Lib.ReduceAll
import Idealize.ShloMosaic.Lib.StableHlo.Predicate

noncomputable section

namespace Cert.Pre_finite_inputs.Hand

open Idealize.ShloMosaic Idealize.ShloMosaic.ValueIdx Cert.Pre_finite_inputs Cert.Spec

variable [Cert.Pre_finite_inputs.Facts]

private instance subsingleton_scalar_idx : Subsingleton S_.Idx := ⟨fun a b => funext fun d => d.elim0⟩

private theorem toInt_c0 : (0#32 : BitVec 32).toInt = 0 := by decide
private theorem toInt_c1000000 : (1000000#32 : BitVec 32).toInt = 1000000 := by decide
private theorem toInt_c1024 : (1024#32 : BitVec 32).toInt = 1024 := by decide

/-- An all-test of "every word is at least the constant c, signed" that is 1 says so at every index. -/
private theorem all_sge {s : Shape} {axes : List (Fin s.rank)} (hb : S_.BroadcastsInDim s (![] : Fin 0 → Fin s.rank))
    (hr : s.ReducesTo axes S_) (h0 : 0 < S_.numel) (a : IVec s 32) (c : BitVec 32) (init : IVec S_ 1) (j : S_.Idx)
    (h : Host.reduce IntOp.andi (cmpi .sge a (broadcastInDim s ![] hb (constantI S_ 32 c))) init hr h0 j = 1#1)
    (i : s.Idx) : c.toInt ≤ (a i).toInt := by
  have hi := Host.reduce_andi_all _ init hr h0 j h i
  have hc : broadcastInDim s ![] hb (constantI S_ 32 c) i = c :=
    StableHlo.Predicate.bcast_scalar hb h0 (constantI S_ 32 c) i
  unfold cmpi at hi
  rw [hc] at hi
  exact IntOp.cmpi_sge.1 hi

/-- An all-test of "every word is below the constant c, signed" that is 1 says so at every index. -/
private theorem all_slt {s : Shape} {axes : List (Fin s.rank)} (hb : S_.BroadcastsInDim s (![] : Fin 0 → Fin s.rank))
    (hr : s.ReducesTo axes S_) (h0 : 0 < S_.numel) (a : IVec s 32) (c : BitVec 32) (init : IVec S_ 1) (j : S_.Idx)
    (h : Host.reduce IntOp.andi (cmpi .slt a (broadcastInDim s ![] hb (constantI S_ 32 c))) init hr h0 j = 1#1)
    (i : s.Idx) : (a i).toInt < c.toInt := by
  have hi := Host.reduce_andi_all _ init hr h0 j h i
  have hc : broadcastInDim s ![] hb (constantI S_ 32 c) i = c :=
    StableHlo.Predicate.bcast_scalar hb h0 (constantI S_ 32 c) i
  unfold cmpi at hi
  rw [hc] at hi
  exact IntOp.cmpi_slt.1 hi

/-- The index ranges the precondition states, row by row of each table. -/
theorem bounds {F : FTy → Type} [FloatOps F] (a0 : FVec F S1000000x1 .f32) (a1 : FVec F S1024 .f32)
    (a2 a3 a4 : IVec S2x16000000 32) (a5 : IVec S2x250000 32)
    (h : Cert.Pre_finite_inputs.fn (F := F) a0 a1 a2 a3 a4 a5 = fun _ => 1#1) :
    (∀ (l : Fin 2) (e : Fin 16000000), 0 ≤ rowInt l a2 e ∧ rowInt l a2 e < 1000000)
    ∧ (∀ (l : Fin 2) (e : Fin 16000000), 0 ≤ rowInt l a4 e ∧ rowInt l a4 e < 1024)
    ∧ (∀ (l : Fin 2) (k : Fin 250000), 0 ≤ rowInt l a5 k) := by
  have h0 := congrFun h ValueIdx.ix0
  dsimp only [fn, fn_part1] at h0
  unfold andi at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  have b1 := all_sge _ _ _ a2 _ _ _ h1
  have b2 := all_slt _ _ _ a2 _ _ _ h2
  have b3 := all_sge _ _ _ a4 _ _ _ h3
  have b4 := all_slt _ _ _ a4 _ _ _ h4
  have b5 := all_sge _ _ _ a5 _ _ _ h5
  rw [toInt_c0] at b1 b3 b5
  rw [toInt_c1000000] at b2
  rw [toInt_c1024] at b4
  exact ⟨fun l e => ⟨b1 (ix2 l e), b2 (ix2 l e)⟩, fun l e => ⟨b3 (ix2 l e), b4 (ix2 l e)⟩, fun l k => b5 (ix2 l k)⟩

end Cert.Pre_finite_inputs.Hand

end
-- ==== Proof.LibScatterCount.lean ====
/-
  An integer scatter-add of scalar updates into a rank-1 array, read at one index as a sum over natural numbers.

  The scatter is a left fold over the update positions: each update is added to the result element its start index
  names, and dropped when that index lies outside the array. Reading the fold at ONE index k, only the updates whose
  start index is k matter, so the element is the operand's element plus the word sum of those updates
  (scatter_apply_fold, for any dimension numbers and any body). For an operand [M], scatter indices [N, 1] and
  updates [N] with the one operand axis inserted, update n lands at the signed value of idx[n, 0] when that lies in
  [0, M) (resultIdx?_eq_some_iff). When the operand's element and all updates together stay below 2 ^ w, no word
  addition wraps, and the word sum is the sum of the natural numbers (scatter_add_toNat).
-/
import Idealize.ShloMosaic.PureOps.ShapeOps
import Idealize.ShloMosaic.Lib.ValueIdx
import Mathlib.Algebra.BigOperators.Fin

noncomputable section

open scoped BigOperators

namespace Cert.LibScatterCount

open Idealize.ShloMosaic Idealize.ShloMosaic.ValueIdx

/-! ## The fold read at one index -/

/-- A scatter read at the index k: the fold, over the update positions in row-major order, that applies the body
    to the running element and the update exactly when the update lands at k. -/
theorem scatter_apply_fold {α : Type} {s si u : Shape} {w : Nat} (d : ScatterDims s si u) (f : α → α → α)
    (x : s.Idx → α) (idx : IVec si w) (upd : u.Idx → α) (k : s.Idx) :
    Host.scatter d f x idx upd k
      = (List.finRange u.numel).foldl (fun a n =>
          if d.resultIdx? (u.rowMajor.symm n) idx = some k then f a (upd (u.rowMajor.symm n)) else a) (x k) := by
  unfold Host.scatter
  generalize List.finRange u.numel = l
  induction l generalizing x with
  | nil => rfl
  | cons n l ih =>
    rw [List.foldl_cons, List.foldl_cons, ih]
    congr 1
    cases hg : d.resultIdx? (u.rowMajor.symm n) idx with
    | none => simp
    | some i =>
      by_cases hki : k = i
      · subst hki; simp
      · have hne : ¬ (some i = some k) := fun h => hki (Option.some.inj h).symm
        simp [hki, hne]

/-! ## Conditional word additions along a list, as natural numbers -/

/-- Adding to a word, along a list, the words v n of the positions that satisfy c: when the word and ALL the v n
    together stay below 2 ^ w nothing wraps, and the result is the word plus the sum of the selected v n. -/
theorem foldl_cond_addi_toNat {ι : Type} {w : Nat} (c : ι → Prop) [DecidablePred c] (v : ι → BitVec w) (l : List ι)
    (a : BitVec w) (hb : a.toNat + (l.map fun n => (v n).toNat).sum < 2 ^ w) :
    (l.foldl (fun a n => if c n then IntOp.addi a (v n) else a) a).toNat
      = a.toNat + (l.map fun n => if c n then (v n).toNat else 0).sum := by
  induction l generalizing a with
  | nil => simp
  | cons n l ih =>
    simp only [List.foldl_cons, List.map_cons, List.sum_cons] at hb ⊢
    by_cases hc : c n
    · have hadd : (IntOp.addi a (v n)).toNat = a.toNat + (v n).toNat := by
        show (a + v n).toNat = _
        rw [BitVec.toNat_add]; exact Nat.mod_eq_of_lt (by omega)
      rw [if_pos hc, if_pos hc, ih _ (by rw [hadd]; omega), hadd]; omega
    · rw [if_neg hc, if_neg hc, ih _ (by omega)]; omega

/-! ## A rank-1 index set, by its coordinate -/

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- A sum along the row-major positions of a rank-1 shape is the sum over the coordinate. -/
theorem sum_finRange_rowMajor {N : Nat} (F : (⟨1, ![N]⟩ : Shape).Idx → ℕ) :
    ((List.finRange (⟨1, ![N]⟩ : Shape).numel).map fun n => F ((⟨1, ![N]⟩ : Shape).rowMajor.symm n)).sum
      = ∑ n : Fin N, F (ix1 n) := by
  rw [← Fin.sum_univ_def, Equiv.sum_comp (⟨1, ![N]⟩ : Shape).rowMajor.symm F,
    ← Equiv.sum_comp (idxEquiv1 (n := N)).symm F]
  rfl

/-! ## Where an update lands: operand [M], scatter indices [N, 1], updates [N], the operand's axis inserted -/

section Landing
variable {M N : Nat} (d : ScatterDims ⟨1, ![M]⟩ ⟨2, ![N, 1]⟩ ⟨1, ![N]⟩)

/-- The operand's one axis is inserted, so no update has a window coordinate on it. -/
theorem window_eq (h2 : d.insertedWindowDims = [0]) (j : (⟨1, ![N]⟩ : Shape).Idx) (a : Fin 1) : d.window j a = 0 := by
  obtain rfl : a = 0 := Subsingleton.elim _ _
  unfold ScatterDims.window
  rw [dif_neg]
  intro ha
  have hm := (List.mem_filter.1 ha).2
  rw [h2] at hm
  simp at hm

/-- The start of update j on the operand's axis is the scatter index idx[j, 0], read signed. -/
theorem start_eq (h1 : d.updateWindowDims = []) (h3 : d.scatterDimsToOperandDims = [0]) (h4 : d.indexVectorDim = 1)
    {w : Nat} (idx : IVec ⟨2, ![N, 1]⟩ w) (j : (⟨1, ![N]⟩ : Shape).Idx) (a : Fin 1) :
    d.start j idx a = (idx (ix2 (j 0) 0)).toInt := by
  obtain rfl : a = 0 := Subsingleton.elim _ _
  obtain ⟨uw, iw, sd, iv, wf⟩ := d
  simp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

/-- Update j lands at k exactly when its scatter index, read signed, is k (an index outside [0, M) lands nowhere). -/
theorem resultIdx?_eq_some_iff (h1 : d.updateWindowDims = []) (h2 : d.insertedWindowDims = [0])
    (h3 : d.scatterDimsToOperandDims = [0]) (h4 : d.indexVectorDim = 1)
    {w : Nat} (idx : IVec ⟨2, ![N, 1]⟩ w) (j : (⟨1, ![N]⟩ : Shape).Idx) (k : Fin M) :
    d.resultIdx? j idx = some (ix1 k) ↔ (idx (ix2 (j 0) 0)).toInt = (k.val : ℤ) := by
  have hs := start_eq d h1 h3 h4 idx j
  have hw := window_eq d h2 j
  unfold ScatterDims.resultIdx?
  split_ifs with h
  · rw [Option.some.injEq]
    constructor
    · intro he
      have h0 := h 0
      have hv : (d.start j idx 0 + (d.window j 0 : ℤ)).toNat = k.val := congrArg Fin.val (congrFun he 0)
      rw [hs 0, hw 0] at hv h0
      omega
    · intro he
      funext a
      obtain rfl : a = 0 := Subsingleton.elim _ _
      refine Fin.ext ?_
      show (d.start j idx 0 + (d.window j 0 : ℤ)).toNat = k.val
      rw [hs 0, hw 0, he]
      simp
  · constructor
    · intro he; cases he
    · intro he
      exfalso
      apply h
      intro a
      obtain rfl : a = 0 := Subsingleton.elim _ _
      rw [hs 0, hw 0, he]
      have hk : ((k.val : ℕ) : ℤ) < ((M : ℕ) : ℤ) := by exact_mod_cast k.isLt
      exact ⟨by simp, by simpa using hk⟩

end Landing

/-! ## The scatter-add read at an index, as natural numbers -/

/-- THE SCATTER-ADD AT k, any word widths: when the operand's element at k and all N updates together stay below
    2 ^ w, the result's element at k is the operand's plus the sum of the updates whose scatter index, read signed,
    is k. -/
theorem scatter_add_toNat_gen {M N w wi : Nat} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec w) (idx : (⟨2, ![N, 1]⟩ : Shape).Idx → BitVec wi)
    (upd : (⟨1, ![N]⟩ : Shape).Idx → BitVec w) (k : Fin M)
    (hb : (x (ix1 k)).toNat + (∑ n : Fin N, (upd (ix1 n)).toNat) < 2 ^ w) :
    (Host.scatter d IntOp.addi x idx upd (ix1 k)).toNat
      = (x (ix1 k)).toNat + ∑ n : Fin N, if (idx (ix2 n 0)).toInt = (k.val : ℤ) then (upd (ix1 n)).toNat else 0 := by
  rw [scatter_apply_fold]
  have hb' : (x (ix1 k)).toNat
      + ((List.finRange (⟨1, ![N]⟩ : Shape).numel).map fun n =>
          (upd ((⟨1, ![N]⟩ : Shape).rowMajor.symm n)).toNat).sum < 2 ^ w := by
    rw [sum_finRange_rowMajor (fun j => (upd j).toNat)]; exact hb
  rw [foldl_cond_addi_toNat
    (fun n => d.resultIdx? ((⟨1, ![N]⟩ : Shape).rowMajor.symm n) idx = some (ix1 k))
    (fun n => upd ((⟨1, ![N]⟩ : Shape).rowMajor.symm n)) _ _ hb']
  congr 1
  rw [sum_finRange_rowMajor (fun j => if d.resultIdx? j idx = some (ix1 k) then (upd j).toNat else 0)]
  refine Finset.sum_congr rfl fun n _ => ?_
  exact if_congr (resultIdx?_eq_some_iff d h1 h2 h3 h4 idx (ix1 n) k) rfl rfl

/-- THE SCATTER-ADD AT k, 32-bit words. -/
theorem scatter_add_toNat {M N : ℕ} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1)
    (x : (⟨1, ![M]⟩ : Shape).Idx → BitVec 32) (idx : (⟨2, ![N, 1]⟩ : Shape).Idx → BitVec 32)
    (upd : (⟨1, ![N]⟩ : Shape).Idx → BitVec 32) (k : Fin M)
    (hb : (x (ix1 k)).toNat + (∑ n : Fin N, (upd (ix1 n)).toNat) < 2 ^ 32) :
    (Host.scatter d IntOp.addi x idx upd (ix1 k)).toNat
      = (x (ix1 k)).toNat + ∑ n : Fin N, if (idx (ix2 n 0)).toInt = (k.val : ℤ) then (upd (ix1 n)).toNat else 0 :=
  scatter_add_toNat_gen d h1 h2 h3 h4 x idx upd k hb

end Cert.LibScatterCount

end
-- ==== Proof.LibScatterRead.lean ====
/-
  General lemmas: a StableHLO scatter read at one index, for the two index layouts jax prints for
  `x.at[idx].set(c)`, `x.at[idx].add(v)` and `segment_sum` over a vector `[M]` and over a column `[M, 1]`.

  In both layouts the scatter indices are a column `[N, 1]`: update n carries ONE signed integer, idx[n, 0], naming
  the operand row it goes to; an integer outside [0, M) lands nowhere. Over a vector the updates are scalars `[N]`;
  over a column each update is a window `[1]` of the column's one-element second axis, so the updates are `[N, 1]`.

  A scatter whose body returns the update, with every update the same constant c, leaves c exactly at the rows some
  update names and the operand elsewhere, whatever the order of the updates. A float scatter with an add body is,
  over the extended reals, the operand's element plus the sum over all n of the update where idx[n, 0] names the row
  and of zero elsewhere.
-/
import Idealize.ShloMosaic.PureOps.Ideal
import Idealize.ShloMosaic.Lib.ValueIdx
import proofs.«422089_j55628416417928_3_alg».proof.Proof.LibScatterCount

noncomputable section

open scoped BigOperators

namespace Cert.Lib.ScatterRead

open Idealize.ShloMosaic Idealize.ShloMosaic.ValueIdx

/-! ## A scatter of one constant, any dimension numbers -/

/-- Overwriting the running element by the constant `c` at the positions of a list that satisfy `P`: `c` when some
    position of the list satisfies `P`, the starting element when none does. -/
private theorem foldl_set_const {ι α : Type} (P : ι → Prop) [DecidablePred P] (c : α) (l : List ι) (x0 : α) :
    ((∃ n ∈ l, P n) → l.foldl (fun a n => if P n then c else a) x0 = c)
      ∧ ((¬ ∃ n ∈ l, P n) → l.foldl (fun a n => if P n then c else a) x0 = x0) := by
  induction l generalizing x0 with
  | nil =>
    refine ⟨?_, fun _ => rfl⟩
    rintro ⟨n, hn, _⟩
    cases hn
  | cons m l ih =>
    rw [List.foldl_cons]
    constructor
    · intro hex
      by_cases hl : ∃ n ∈ l, P n
      · exact (ih _).1 hl
      · have hm : P m := by
          obtain ⟨n, hn, hp⟩ := hex
          rcases List.mem_cons.1 hn with rfl | hn'
          · exact hp
          · exact absurd ⟨n, hn', hp⟩ hl
        rw [if_pos hm]
        exact (ih c).2 hl
    · intro hno
      have hm : ¬ P m := fun hp => hno ⟨m, List.mem_cons_self, hp⟩
      have hl : ¬ ∃ n ∈ l, P n := fun ⟨n, hn, hp⟩ => hno ⟨n, List.mem_cons_of_mem _ hn, hp⟩
      rw [if_neg hm]
      exact (ih x0).2 hl

/-- A scatter whose body returns the update and whose updates are all the constant `c`, read at `k`: `c` when some
    update lands at `k`, the operand's element otherwise. -/
theorem scatter_set_const_apply {α : Type} {s si u : Shape} {w : Nat} (d : ScatterDims s si u) (x : s.Idx → α)
    (idx : IVec si w) (c : α) (k : s.Idx) [Decidable (∃ j : u.Idx, d.resultIdx? j idx = some k)] :
    Host.scatter d (fun _ b => b) x idx (fun _ => c) k
      = if ∃ j : u.Idx, d.resultIdx? j idx = some k then c else x k := by
  rw [Cert.LibScatterCount.scatter_apply_fold]
  have key := foldl_set_const (fun n : Fin u.numel => d.resultIdx? (u.rowMajor.symm n) idx = some k) c
    (List.finRange u.numel) (x k)
  have hiff : (∃ n ∈ List.finRange u.numel, d.resultIdx? (u.rowMajor.symm n) idx = some k)
      ↔ ∃ j : u.Idx, d.resultIdx? j idx = some k := by
    constructor
    · rintro ⟨n, _, h⟩
      exact ⟨_, h⟩
    · rintro ⟨j, h⟩
      refine ⟨u.rowMajor j, List.mem_finRange _, ?_⟩
      rw [Equiv.symm_apply_apply]
      exact h
  split_ifs with h
  · exact key.1 (hiff.2 h)
  · exact key.2 (fun h' => h (hiff.1 h'))

/-! ## Where an update lands: operand [M, 1], scatter indices [N, 1], updates [N, 1] (a window of one element) -/

section LandingCol
variable {M N : Nat} (d : ScatterDims ⟨2, ![M, 1]⟩ ⟨2, ![N, 1]⟩ ⟨2, ![N, 1]⟩)

/-- The operand's first axis is inserted, so no update has a window coordinate on it. -/
private theorem window_col0 (h2 : d.insertedWindowDims = [0]) (j : (⟨2, ![N, 1]⟩ : Shape).Idx) :
    d.window j 0 = 0 := by
  unfold ScatterDims.window
  rw [dif_neg]
  intro ha
  have hm := (List.mem_filter.1 ha).2
  rw [h2] at hm
  simp at hm

/-- On the operand's second axis the window coordinate is the update's coordinate on its own second axis, whose
    extent is one: it is zero. -/
private theorem window_col1 (h1 : d.updateWindowDims = [1]) (j : (⟨2, ![N, 1]⟩ : Shape).Idx) :
    d.window j 1 = 0 := by
  obtain ⟨uw, iw, sd, iv, wf⟩ := d
  simp only at h1
  subst h1
  unfold ScatterDims.window
  split_ifs with ha
  · have key : ∀ a : Fin 2, a = 1 → (j a).val = 0 := by
      intro a ha
      subst ha
      have := idx2_lt1 j
      omega
    exact key _ (List.mem_singleton.1 (List.getElem_mem _))
  · rfl

/-- The start of update (n, q) on the operand's first axis is the scatter index idx[n, 0], read signed. -/
private theorem start_col0 (h1 : d.updateWindowDims = [1]) (h3 : d.scatterDimsToOperandDims = [0])
    (h4 : d.indexVectorDim = 1) {w : Nat} (idx : IVec ⟨2, ![N, 1]⟩ w) (n : Fin N) :
    d.start (ix2 n (0 : Fin 1)) idx 0 = (idx (ix2 n (0 : Fin 1))).toInt := by
  obtain ⟨uw, iw, sd, iv, wf⟩ := d
  simp only at h1 h3 h4
  subst h1 h3 h4
  unfold ScatterDims.start
  rw [dif_pos (List.mem_singleton.mpr rfl)]
  congr 2
  funext b
  refine Fin.ext ?_
  match b with
  | ⟨0, _⟩ => rfl
  | ⟨1, _⟩ => rfl

/-- The operand's second axis is not named by the map: every window starts at zero on it. -/
private theorem start_col1 (h3 : d.scatterDimsToOperandDims = [0]) {w : Nat} (idx : IVec ⟨2, ![N, 1]⟩ w)
    (j : (⟨2, ![N, 1]⟩ : Shape).Idx) : d.start j idx 1 = 0 := by
  unfold ScatterDims.start
  rw [dif_neg]
  rw [h3]
  simp

end LandingCol

/-- Update (n, 0) lands at row k exactly when its scatter index, read signed, is k. -/
theorem resultIdx?_col_iff {M N : Nat} (d : ScatterDims ⟨2, ![M, 1]⟩ ⟨2, ![N, 1]⟩ ⟨2, ![N, 1]⟩)
    (h1 : d.updateWindowDims = [1]) (h2 : d.insertedWindowDims = [0]) (h3 : d.scatterDimsToOperandDims = [0])
    (h4 : d.indexVectorDim = 1) {w : Nat} (idx : IVec ⟨2, ![N, 1]⟩ w) (n : Fin N) (k : Fin M) :
    d.resultIdx? (ix2 n (0 : Fin 1)) idx = some (ix2 k (0 : Fin 1))
      ↔ (idx (ix2 n (0 : Fin 1))).toInt = (k.val : ℤ) := by
  have hs0 := start_col0 d h1 h3 h4 idx n
  have hs1 := start_col1 d h3 idx (ix2 n (0 : Fin 1))
  have hw0 := window_col0 d h2 (ix2 n (0 : Fin 1))
  have hw1 := window_col1 d h1 (ix2 n (0 : Fin 1))
  unfold ScatterDims.resultIdx?
  split_ifs with h
  · rw [Option.some.injEq]
    constructor
    · intro he
      have h0 := h 0
      have hv : (d.start (ix2 n (0 : Fin 1)) idx 0 + (d.window (ix2 n (0 : Fin 1)) 0 : ℤ)).toNat = k.val :=
        congrArg Fin.val (congrFun he 0)
      rw [hs0, hw0] at hv h0
      omega
    · intro he
      funext a
      refine Fin.ext ?_
      match a with
      | ⟨0, _⟩ =>
        show (d.start (ix2 n (0 : Fin 1)) idx 0 + (d.window (ix2 n (0 : Fin 1)) 0 : ℤ)).toNat = k.val
        rw [hs0, hw0, he]
        simp
      | ⟨1, _⟩ =>
        show (d.start (ix2 n (0 : Fin 1)) idx 1 + (d.window (ix2 n (0 : Fin 1)) 1 : ℤ)).toNat = 0
        rw [hs1, hw1]
        simp
  · constructor
    · intro he; cases he
    · intro he
      exfalso
      apply h
      intro a
      match a with
      | ⟨0, _⟩ =>
        show 0 ≤ d.start (ix2 n (0 : Fin 1)) idx 0 + (d.window (ix2 n (0 : Fin 1)) 0 : ℤ)
          ∧ d.start (ix2 n (0 : Fin 1)) idx 0 + (d.window (ix2 n (0 : Fin 1)) 0 : ℤ) < ((M : ℕ) : ℤ)
        rw [hs0, hw0, he]
        have hk : ((k.val : ℕ) : ℤ) < ((M : ℕ) : ℤ) := by exact_mod_cast k.isLt
        exact ⟨by simp, by simpa using hk⟩
      | ⟨1, _⟩ =>
        show 0 ≤ d.start (ix2 n (0 : Fin 1)) idx 1 + (d.window (ix2 n (0 : Fin 1)) 1 : ℤ)
          ∧ d.start (ix2 n (0 : Fin 1)) idx 1 + (d.window (ix2 n (0 : Fin 1)) 1 : ℤ) < ((1 : ℕ) : ℤ)
        rw [hs1, hw1]
        simp

/-! ## The constant scatter read at a row -/

/-- Over a vector `[M]`: `c` at the rows some scatter index names, the operand elsewhere. -/
theorem scatter_set_vec_apply {α : Type} {M N w : Nat} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (x : (⟨1, ![M]⟩ : Shape).Idx → α) (idx : IVec ⟨2, ![N, 1]⟩ w) (c : α) (k : Fin M)
    [Decidable (∃ n : Fin N, (idx (ix2 n (0 : Fin 1))).toInt = (k.val : ℤ))] :
    Host.scatter d (fun _ b => b) x idx (fun _ => c) (ix1 k)
      = if ∃ n : Fin N, (idx (ix2 n (0 : Fin 1))).toInt = (k.val : ℤ) then c else x (ix1 k) := by
  have hiff : (∃ j : (⟨1, ![N]⟩ : Shape).Idx, d.resultIdx? j idx = some (ix1 k))
      ↔ ∃ n : Fin N, (idx (ix2 n (0 : Fin 1))).toInt = (k.val : ℤ) := by
    constructor
    · rintro ⟨j, h⟩
      exact ⟨j 0, (Cert.LibScatterCount.resultIdx?_eq_some_iff d h1 h2 h3 h4 idx j k).1 h⟩
    · rintro ⟨n, h⟩
      exact ⟨ix1 n, (Cert.LibScatterCount.resultIdx?_eq_some_iff d h1 h2 h3 h4 idx (ix1 n) k).2 h⟩
  haveI : Decidable (∃ j : (⟨1, ![N]⟩ : Shape).Idx, d.resultIdx? j idx = some (ix1 k)) := Classical.propDecidable _
  rw [scatter_set_const_apply d x idx c (ix1 k)]
  exact if_congr hiff rfl rfl

/-- Over a column `[M, 1]`: the same. -/
theorem scatter_set_col_apply {α : Type} {M N w : Nat} (d : ScatterDims ⟨2, ![M, 1]⟩ ⟨2, ![N, 1]⟩ ⟨2, ![N, 1]⟩)
    (h1 : d.updateWindowDims = [1]) (h2 : d.insertedWindowDims = [0]) (h3 : d.scatterDimsToOperandDims = [0])
    (h4 : d.indexVectorDim = 1) (x : (⟨2, ![M, 1]⟩ : Shape).Idx → α) (idx : IVec ⟨2, ![N, 1]⟩ w) (c : α) (k : Fin M)
    [Decidable (∃ n : Fin N, (idx (ix2 n (0 : Fin 1))).toInt = (k.val : ℤ))] :
    Host.scatter d (fun _ b => b) x idx (fun _ => c) (ix2 k (0 : Fin 1))
      = if ∃ n : Fin N, (idx (ix2 n (0 : Fin 1))).toInt = (k.val : ℤ) then c else x (ix2 k (0 : Fin 1)) := by
  have hiff : (∃ j : (⟨2, ![N, 1]⟩ : Shape).Idx, d.resultIdx? j idx = some (ix2 k (0 : Fin 1)))
      ↔ ∃ n : Fin N, (idx (ix2 n (0 : Fin 1))).toInt = (k.val : ℤ) := by
    constructor
    · rintro ⟨j, h⟩
      obtain ⟨p, q, rfl⟩ : ∃ (p : Fin N) (q : Fin 1), j = ix2 p q := ⟨j 0, j 1, eq_ix2 j⟩
      obtain rfl : q = 0 := Subsingleton.elim _ _
      exact ⟨p, (resultIdx?_col_iff d h1 h2 h3 h4 idx p k).1 h⟩
    · rintro ⟨n, h⟩
      exact ⟨ix2 n (0 : Fin 1), (resultIdx?_col_iff d h1 h2 h3 h4 idx n k).2 h⟩
  haveI : Decidable (∃ j : (⟨2, ![N, 1]⟩ : Shape).Idx, d.resultIdx? j idx = some (ix2 k (0 : Fin 1))) :=
    Classical.propDecidable _
  rw [scatter_set_const_apply d x idx c (ix2 k (0 : Fin 1))]
  exact if_congr hiff rfl rfl

/-! ## The accumulating float scatter read at a row, over the extended reals -/

/-- Over a vector `[M]`: the operand's element plus the sum of the updates whose scatter index names the row. -/
theorem scatterAdd_vec_apply {M N w : Nat} (d : ScatterDims ⟨1, ![M]⟩ ⟨2, ![N, 1]⟩ ⟨1, ![N]⟩)
    (h1 : d.updateWindowDims = []) (h2 : d.insertedWindowDims = [0]) (h3 : d.scatterDimsToOperandDims = [0])
    (h4 : d.indexVectorDim = 1) (x : (⟨1, ![M]⟩ : Shape).Idx → EReal) (idx : IVec ⟨2, ![N, 1]⟩ w)
    (upd : (⟨1, ![N]⟩ : Shape).Idx → EReal) (k : Fin M) :
    Ideal.hostScatterAdd d x idx upd (ix1 k)
      = x (ix1 k) + ∑ n : Fin N, if (idx (ix2 n (0 : Fin 1))).toInt = (k.val : ℤ) then upd (ix1 n) else 0 := by
  unfold Ideal.hostScatterAdd
  congr 1
  rw [Finset.sum_filter,
    ← Equiv.sum_comp (Cert.LibScatterCount.idxEquiv1 (n := N)).symm
      (fun j => if d.resultIdx? j idx = some (ix1 k) then upd j else 0)]
  refine Finset.sum_congr rfl fun n _ => ?_
  exact if_congr (Cert.LibScatterCount.resultIdx?_eq_some_iff d h1 h2 h3 h4 idx (ix1 n) k) rfl rfl

/-- Over a column `[M, 1]`: the same. -/
theorem scatterAdd_col_apply {M N w : Nat} (d : ScatterDims ⟨2, ![M, 1]⟩ ⟨2, ![N, 1]⟩ ⟨2, ![N, 1]⟩)
    (h1 : d.updateWindowDims = [1]) (h2 : d.insertedWindowDims = [0]) (h3 : d.scatterDimsToOperandDims = [0])
    (h4 : d.indexVectorDim = 1) (x : (⟨2, ![M, 1]⟩ : Shape).Idx → EReal) (idx : IVec ⟨2, ![N, 1]⟩ w)
    (upd : (⟨2, ![N, 1]⟩ : Shape).Idx → EReal) (k : Fin M) :
    Ideal.hostScatterAdd d x idx upd (ix2 k (0 : Fin 1))
      = x (ix2 k (0 : Fin 1))
        + ∑ n : Fin N, if (idx (ix2 n (0 : Fin 1))).toInt = (k.val : ℤ) then upd (ix2 n (0 : Fin 1)) else 0 := by
  unfold Ideal.hostScatterAdd
  congr 1
  rw [Finset.sum_filter, sum_idx2]
  refine Finset.sum_congr rfl fun n _ => ?_
  rw [Fin.sum_univ_succ, Fin.sum_univ_zero, add_zero]
  exact if_congr (resultIdx?_col_iff d h1 h2 h3 h4 idx n k) rfl rfl

end Cert.Lib.ScatterRead

end
-- ==== Proof.LibGatherRows.lean ====
/-
  General lemma: jnp's `table[idx]` for a matrix `table : [N, D]` and a vector of row numbers, as StableHLO prints it.
  The gather takes whole rows: offset_dims [1], collapsed_slice_dims [0], start_index_map [0], slice_sizes [1, D], with the
  row numbers laid out as a column [R, 1] (index_vector_dim 1). Result entry (r, c) is the table at row `idx[r, 0]`, read as
  a signed integer and clamped into [0, N − 1], and column c.
-/
import Idealize.ShloMosaic.Lib.ValueIdx

open Idealize.ShloMosaic Idealize.ShloMosaic.ValueIdx

namespace Cert.Lib.GatherRows

variable {α : Type}

/-- The dimension numbers of a whole-row gather from `[N, D]` by a column `[R, 1]` of row numbers into `[R, D]`. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section
variable {N D R w : Nat}
  (wf : GatherDims.WF ⟨2, ![N, D]⟩ ⟨2, ![R, 1]⟩ ⟨2, ![R, D]⟩ [1] [0] [] [0] [] 1 ![1, D])
  (idx : IVec ⟨2, ![R, 1]⟩ w) (r : Fin R) (c : Fin D)

/-- On the table's row axis the operand index is the clamped row number (the axis is collapsed: no offset). -/
theorem operandIdx_row :
    ((rowDims N D R wf).operandIdx (ix2 r c) idx (0 : Fin 2)).val = min (idx (ix2 r (0 : Fin 1))).toInt.toNat (N - 1) := by
  show (rowDims N D R wf).start (ix2 r c) idx 0 + (rowDims N D R wf).batchCoord (ix2 r c) 0
    + (rowDims N D R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx (ix2 r c) ⟨List.idxOf (0 : Fin 2) (rowDims N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis the operand index is the result's column (the axis is not in the start index map). -/
theorem operandIdx_col :
    ((rowDims N D R wf).operandIdx (ix2 r c) idx (1 : Fin 2)).val = c.val := by
  show (rowDims N D R wf).start (ix2 r c) idx 1 + (rowDims N D R wf).batchCoord (ix2 r c) 1
    + (rowDims N D R wf).offCoord (ix2 r c) 1 = _
  have h1 : (1 : Fin 2) ∈ (rowDims N D R wf).sKept := by
    rw [GatherDims.mem_sKept]
    exact ⟨fun h => absurd (congrArg Fin.val (List.mem_singleton.mp h)) Nat.one_ne_zero, List.not_mem_nil⟩
  rw [GatherDims.batchCoord_eq_zero _ _ _ List.not_mem_nil]
  unfold GatherDims.start
  rw [dif_neg (show (1 : Fin 2) ∉ (rowDims N D R wf).startIndexMap from
    fun h => absurd (congrArg Fin.val (List.mem_singleton.mp h)) Nat.one_ne_zero)]
  unfold GatherDims.offCoord
  rw [dif_pos h1]
  simp only [Nat.zero_add, Nat.add_zero]
  rfl

end

/-- The whole-row gather read at `(r, c)`: the table at the clamped row number `idx[r, 0]` and column `c`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (c : Fin D) :
    Host.gather (rowDims N D R wf) x idx (ix2 r c)
      = x (ix2 ⟨min (idx (ix2 r (0 : Fin 1))).toInt.toNat (N - 1), by omega⟩ c) := by
  unfold Host.gather
  congr 1
  funext a
  refine Fin.ext ?_
  match a with
  | ⟨0, _⟩ => exact operandIdx_row wf idx r c
  | ⟨1, _⟩ => exact operandIdx_col wf idx r c

end Cert.Lib.GatherRows
-- ==== Proof.RefSide.lean ====
/-
  The reference's two layers read at a node, over the extended reals.

  The reference keeps the node state as a column of 1000000 rows. In each layer it zeroes the state at the targets
  (a negative target wrapped by 1000000, a target outside the column dropped), gathers the state at the edge sources
  and the weights at the edge weight numbers (a negative index wrapped by the table's length, then clamped into the
  table), multiplies them edge by edge, adds the products into a column of zeros at the edge destinations (a
  destination outside the column dropped), applies the layer's activation and adds the zeroed state.

  When every source lies in [0, 1000000), every weight number in [0, 1024) and every target is nonnegative, nothing is
  wrapped or clamped, and row i of the layer's result is the abstract layer of Spec.lean at node i.
-/
import proofs.«422089_j55628416417928_3_alg».proof.Proof.Gen.ReferenceIdeal.Read
import proofs.«422089_j55628416417928_3_alg».proof.Proof.Spec
import proofs.«422089_j55628416417928_3_alg».proof.Proof.LibScatterRead
import proofs.«422089_j55628416417928_3_alg».proof.Proof.LibGatherRows
import Idealize.ShloMosaic.Lib.StableHlo.Predicate
import Idealize.ShloMosaic.Lib.IdealHost
import Idealize.ShloMosaic.Lib.Pipeline.Value

noncomputable section

open scoped BigOperators

namespace Cert.ReferenceIdeal.Hand

open Idealize.ShloMosaic Idealize.ShloMosaic.ValueIdx Cert.ReferenceIdeal Cert.ReferenceIdeal.Gen Cert.ReferenceIdeal.Read Cert.Spec

/-- A nonnegative signed word is left alone by the wrap of negative indices. -/
private theorem wrap_nonneg (t z N : BitVec 32) (hz : z = 0#32) (ht : 0 ≤ t.toInt) :
    Scalar.select (IntOp.cmpi .slt t z) (IntOp.addi t N) t = t := by
  subst hz
  have h : ¬ IntOp.cmpi .slt t 0#32 = 1#1 := by
    rw [IntOp.cmpi_slt]
    have h0 : (0#32 : BitVec 32).toInt = 0 := by decide
    rw [h0]; omega
  rw [eq_zero_of_ne_one h, select_zero]

/-- The state gather at an edge whose source is a node number. -/
private theorem gatherX_apply (X : FVec Ideal S1000000x1 .f32) (Uc : IVec S16000000x1 32) (e : Fin 16000000) (a : ℤ)
    (hU : (Uc (ix2 e (0 : Fin 1))).toInt = a) (h0 : 0 ≤ a) (h1 : a < 1000000) :
    Host.gather gather_S1000000x1_S16000000x1_S16000000x1_1_0_n_n_0_1_11 X Uc (ix2 e (0 : Fin 1))
      = colFun (n := 1000000) X a.toNat := by
  have hg : gather_S1000000x1_S16000000x1_S16000000x1_1_0_n_n_0_1_11
      = Cert.Lib.GatherRows.rowDims 1000000 1 16000000 gather_S1000000x1_S16000000x1_S16000000x1_1_0_n_n_0_1_11_wf := rfl
  rw [hg, Cert.Lib.GatherRows.gather_rows_apply (by omega), colFun_of_lt X a.toNat (by omega)]
  congr 2
  apply Fin.ext
  show min (Uc (ix2 e (0 : Fin 1))).toInt.toNat (1000000 - 1) = a.toNat
  rw [hU]; omega

/-- The weight gather at an edge whose weight number is in the table. -/
private theorem gatherW_apply (x1 : FVec Ideal S1024 .f32) (Wc : IVec S16000000x1 32) (e : Fin 16000000) (a : ℤ)
    (hW : (Wc (ix2 e (0 : Fin 1))).toInt = a) (h0 : 0 ≤ a) (h1 : a < 1024) :
    Host.gather gather_S1024_S16000000x1_S16000000_n_0_n_n_0_1_1 x1 Wc (ix1 e)
      = vecFun (n := 1024) x1 a.toNat := by
  have hi : (ix1 e : S16000000.Idx) = Shape.Idx.ofFin e := by
    funext d; match d with | ⟨0, _⟩ => rfl
  have hp : (StableHlo.Predicate.ixP e : S16000000x1.Idx) = ix2 e (0 : Fin 1) := by
    funext d; match d with | ⟨0, _⟩ => rfl | ⟨1, _⟩ => rfl
  rw [hi, StableHlo.Predicate.gather_take _ rfl rfl rfl rfl x1 Wc e (by omega), vecFun_of_lt x1 a.toNat (by omega)]
  congr 1
  funext d
  match d with
  | ⟨0, _⟩ =>
    apply Fin.ext
    show min (Wc (StableHlo.Predicate.ixP e)).toInt.toNat (1024 - 1) = a.toNat
    rw [hp, hW]; omega

/-- The layer from its pieces: the state zeroed at the targets plus the activation of the accumulated messages. -/
private theorem layer_of_pieces (act : EReal → EReal) (X : FVec Ideal S1000000x1 .f32) (Tc : IVec S250000x1 32)
    (Z : FVec Ideal S250000x1 .f32) (Vc : IVec S16000000x1 32) (Zero : FVec Ideal S1000000x1 .f32)
    (M : FVec Ideal S16000000x1 .f32) (w : ℕ → EReal) (u v wi : Fin 16000000 → ℤ) (tg : Fin 250000 → ℤ)
    (hT : ∀ k : Fin 250000, (Tc (ix2 k (0 : Fin 1))).toInt = tg k) (hZ : Z = fun _ => (0 : EReal))
    (hV : ∀ e : Fin 16000000, (Vc (ix2 e (0 : Fin 1))).toInt = v e) (hZero : ∀ j, Zero j = 0)
    (hM : ∀ e : Fin 16000000, M (ix2 e (0 : Fin 1)) = colFun (n := 1000000) X (u e).toNat * w (wi e).toNat)
    (i : Fin 1000000) :
    Host.scatter scatter_S1000000x1_S250000x1_S250000x1_1_0_0_1 (fun _ b => b) X Tc Z (ix2 i (0 : Fin 1))
        + act (Host.scatterAdd scatter_S1000000x1_S16000000x1_S16000000x1_1_0_0_1 Zero Vc M (ix2 i (0 : Fin 1)))
      = layer act (colFun (n := 1000000) X) w u v wi tg i.val := by
  subst hZ
  have h1 : Host.scatter scatter_S1000000x1_S250000x1_S250000x1_1_0_0_1 (fun _ b => b) X Tc (fun _ => (0 : EReal))
        (ix2 i (0 : Fin 1))
      = if ∃ k : Fin 250000, (Tc (ix2 k (0 : Fin 1))).toInt = (i.val : ℤ) then 0 else colFun (n := 1000000) X i.val := by
    rw [Cert.Lib.ScatterRead.scatter_set_col_apply _ rfl rfl rfl rfl X Tc (0 : EReal) i, colFun_of_lt X i.val i.isLt]
  have h2 : Host.scatterAdd scatter_S1000000x1_S16000000x1_S16000000x1_1_0_0_1 Zero Vc M (ix2 i (0 : Fin 1))
      = 0 + ∑ e : Fin 16000000,
          if v e = (i.val : ℤ) then colFun (n := 1000000) X (u e).toNat * w (wi e).toNat else 0 := by
    show Ideal.hostScatterAdd scatter_S1000000x1_S16000000x1_S16000000x1_1_0_0_1 Zero Vc M (ix2 i (0 : Fin 1)) = _
    rw [Cert.Lib.ScatterRead.scatterAdd_col_apply _ rfl rfl rfl rfl Zero Vc M i, hZero]
    refine congrArg (fun s => (0 : EReal) + s) (Finset.sum_congr rfl fun e _ => ?_)
    rw [hV e, hM e]
  rw [h1, h2]
  unfold layer
  by_cases h : ∃ k, tg k = (i.val : ℤ)
  · rw [if_pos h, if_pos (by obtain ⟨k, hk⟩ := h; exact ⟨k, by rw [hT k]; exact hk⟩)]
  · rw [if_neg h, if_neg (by rintro ⟨k, hk⟩; exact h ⟨k, by rw [← hT k]; exact hk⟩)]

/-! ## The index tables' rows, and the index columns the two layers read -/

/-- The first layer's targets: row 0 of the target table. -/
private theorem row_t0 (x : IVec S2x250000 32) (e : Fin 250000) :
    val_main_v1 (F := Ideal) x (ix1 e) = x (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- The first layer's sources: row 0 of the source table. -/
private theorem row_u0 (x : IVec S2x16000000 32) (e : Fin 16000000) :
    val_main_v11 (F := Ideal) x (ix1 e) = x (ix2 (0 : Fin 2) e) := by
  rw [val_main_v11_apply, val_main_v10_apply]
  congr 1
  funext a
  match a with
  | ⟨0, _⟩ => rfl
  | ⟨1, _⟩ => exact Fin.ext (Nat.mod_eq_of_lt e.isLt)

/-- The first layer's weight numbers: row 0 of the weight-number table. -/
private theorem row_w0 (x : IVec S2x16000000 32) (e : Fin 16000000) :
    val_main_v20 (F := Ideal) x (ix1 e) = x (ix2 (0 : Fin 2) e) := by
  rw [val_main_v20_apply, val_main_v19_apply]
  congr 1
  funext a
  match a with
  | ⟨0, _⟩ => rfl
  | ⟨1, _⟩ => exact Fin.ext (Nat.mod_eq_of_lt e.isLt)

/-- The first layer's destinations: row 0 of the destination table. -/
private theorem row_v0 (x : IVec S2x16000000 32) (e : Fin 16000000) :
    val_main_v31 (F := Ideal) x (ix1 e) = x (ix2 (0 : Fin 2) e) := by
  rw [val_main_v31_apply, val_main_v30_apply]
  congr 1
  funext a
  match a with
  | ⟨0, _⟩ => rfl
  | ⟨1, _⟩ => exact Fin.ext (Nat.mod_eq_of_lt e.isLt)

/-- The second layer's targets: row 1 of the target table. -/
private theorem row_t1 (x : IVec S2x250000 32) (e : Fin 250000) :
    val_main_v37 (F := Ideal) x (ix1 e) = x (ix2 (1 : Fin 2) e) := by
  rw [val_main_v37_apply, val_main_v36_apply]
  congr 1
  funext a
  match a with
  | ⟨0, _⟩ => rfl
  | ⟨1, _⟩ => exact Fin.ext (Nat.mod_eq_of_lt e.isLt)

/-- The second layer's sources: row 1 of the source table. -/
private theorem row_u1 (x : IVec S2x16000000 32) (e : Fin 16000000) :
    val_main_v47 (F := Ideal) x (ix1 e) = x (ix2 (1 : Fin 2) e) := by
  rw [val_main_v47_apply, val_main_v46_apply]
  congr 1
  funext a
  match a with
  | ⟨0, _⟩ => rfl
  | ⟨1, _⟩ => exact Fin.ext (Nat.mod_eq_of_lt e.isLt)

/-- The second layer's weight numbers: row 1 of the weight-number table. -/
private theorem row_w1 (x : IVec S2x16000000 32) (e : Fin 16000000) :
    val_main_v56 (F := Ideal) x (ix1 e) = x (ix2 (1 : Fin 2) e) := by
  rw [val_main_v56_apply, val_main_v55_apply]
  congr 1
  funext a
  match a with
  | ⟨0, _⟩ => rfl
  | ⟨1, _⟩ => exact Fin.ext (Nat.mod_eq_of_lt e.isLt)

/-- The second layer's destinations: row 1 of the destination table. -/
private theorem row_v1 (x : IVec S2x16000000 32) (e : Fin 16000000) :
    val_main_v67 (F := Ideal) x (ix1 e) = x (ix2 (1 : Fin 2) e) := by
  rw [val_main_v67_apply, val_main_v66_apply]
  congr 1
  funext a
  match a with
  | ⟨0, _⟩ => rfl
  | ⟨1, _⟩ => exact Fin.ext (Nat.mod_eq_of_lt e.isLt)

/-- A nonnegative target of the first layer is not wrapped. -/
private theorem col_t0 (x : IVec S2x250000 32) (e : Fin 250000) (h : 0 ≤ rowInt 0 x e) :
    (val_main_v7 (F := Ideal) x (ix2 e (0 : Fin 1))).toInt = rowInt 0 x e := by
  have hi : idx_main_v7 (ix2 e (0 : Fin 1)) = ix1 e := by
    funext a; match a with | ⟨0, _⟩ => rfl
  rw [val_main_v7_apply, hi, val_main_v6_apply, val_main_v3_apply, val_main_v5_apply, row_t0]
  exact congrArg BitVec.toInt (wrap_nonneg _ _ _ rfl h)

/-- A nonnegative source of the first layer is not wrapped. -/
private theorem col_u0 (x : IVec S2x16000000 32) (e : Fin 16000000) (h : 0 ≤ rowInt 0 x e) :
    (val_main_v17 (F := Ideal) x (ix2 e (0 : Fin 1))).toInt = rowInt 0 x e := by
  have hi : idx_main_v17 (ix2 e (0 : Fin 1)) = ix1 e := by
    funext a; match a with | ⟨0, _⟩ => rfl
  rw [val_main_v17_apply, hi, val_main_v16_apply, val_main_v13_apply, val_main_v15_apply, row_u0]
  exact congrArg BitVec.toInt (wrap_nonneg _ _ _ rfl h)

/-- A nonnegative weight number of the first layer is not wrapped. -/
private theorem col_w0 (x : IVec S2x16000000 32) (e : Fin 16000000) (h : 0 ≤ rowInt 0 x e) :
    (val_main_v26 (F := Ideal) x (ix2 e (0 : Fin 1))).toInt = rowInt 0 x e := by
  have hi : idx_main_v26 (ix2 e (0 : Fin 1)) = ix1 e := by
    funext a; match a with | ⟨0, _⟩ => rfl
  rw [val_main_v26_apply, hi, val_main_v25_apply, val_main_v22_apply, val_main_v24_apply, row_w0]
  exact congrArg BitVec.toInt (wrap_nonneg _ _ _ rfl h)

/-- The first layer's destination column. -/
private theorem col_v0 (x : IVec S2x16000000 32) (e : Fin 16000000) :
    (val_main_v33 (F := Ideal) x (ix2 e (0 : Fin 1))).toInt = rowInt 0 x e := by
  have hi : idx_main_v33 (ix2 e (0 : Fin 1)) = ix1 e := by
    funext a; match a with | ⟨0, _⟩ => rfl
  rw [val_main_v33_apply, hi, row_v0]
  rfl

/-- A nonnegative target of the second layer is not wrapped. -/
private theorem col_t1 (x : IVec S2x250000 32) (e : Fin 250000) (h : 0 ≤ rowInt 1 x e) :
    (val_main_v43 (F := Ideal) x (ix2 e (0 : Fin 1))).toInt = rowInt 1 x e := by
  have hi : idx_main_v43 (ix2 e (0 : Fin 1)) = ix1 e := by
    funext a; match a with | ⟨0, _⟩ => rfl
  rw [val_main_v43_apply, hi, val_main_v42_apply, val_main_v39_apply, val_main_v41_apply, row_t1]
  exact congrArg BitVec.toInt (wrap_nonneg _ _ _ rfl h)

/-- A nonnegative source of the second layer is not wrapped. -/
private theorem col_u1 (x : IVec S2x16000000 32) (e : Fin 16000000) (h : 0 ≤ rowInt 1 x e) :
    (val_main_v53 (F := Ideal) x (ix2 e (0 : Fin 1))).toInt = rowInt 1 x e := by
  have hi : idx_main_v53 (ix2 e (0 : Fin 1)) = ix1 e := by
    funext a; match a with | ⟨0, _⟩ => rfl
  rw [val_main_v53_apply, hi, val_main_v52_apply, val_main_v49_apply, val_main_v51_apply, row_u1]
  exact congrArg BitVec.toInt (wrap_nonneg _ _ _ rfl h)

/-- A nonnegative weight number of the second layer is not wrapped. -/
private theorem col_w1 (x : IVec S2x16000000 32) (e : Fin 16000000) (h : 0 ≤ rowInt 1 x e) :
    (val_main_v62 (F := Ideal) x (ix2 e (0 : Fin 1))).toInt = rowInt 1 x e := by
  have hi : idx_main_v62 (ix2 e (0 : Fin 1)) = ix1 e := by
    funext a; match a with | ⟨0, _⟩ => rfl
  rw [val_main_v62_apply, hi, val_main_v61_apply, val_main_v58_apply, val_main_v60_apply, row_w1]
  exact congrArg BitVec.toInt (wrap_nonneg _ _ _ rfl h)

/-- The second layer's destination column. -/
private theorem col_v1 (x : IVec S2x16000000 32) (e : Fin 16000000) :
    (val_main_v69 (F := Ideal) x (ix2 e (0 : Fin 1))).toInt = rowInt 1 x e := by
  have hi : idx_main_v69 (ix2 e (0 : Fin 1)) = ix1 e := by
    funext a; match a with | ⟨0, _⟩ => rfl
  rw [val_main_v69_apply, hi, row_v1]
  rfl

/-! ## The first layer -/

/-- The first layer's message along edge e: the source's state times the edge's weight. -/
private theorem msg0 (x0 : FVec Ideal S1000000x1 .f32) (x1 : FVec Ideal S1024 .f32) (x2 x4 : IVec S2x16000000 32)
    (hu : ∀ e : Fin 16000000, 0 ≤ rowInt 0 x2 e ∧ rowInt 0 x2 e < 1000000)
    (hw : ∀ e : Fin 16000000, 0 ≤ rowInt 0 x4 e ∧ rowInt 0 x4 e < 1024) (e : Fin 16000000) :
    val_main_v29 (F := Ideal) x0 x1 x2 x4 (ix2 e (0 : Fin 1))
      = colFun (n := 1000000) x0 (rowInt 0 x2 e).toNat * vecFun (n := 1024) x1 (rowInt 0 x4 e).toNat := by
  have hi : idx_main_v28 (ix2 e (0 : Fin 1)) = ix1 e := by
    funext a; match a with | ⟨0, _⟩ => rfl
  rw [val_main_v29_apply, val_main_v28_apply, hi]
  unfold val_main_v18 val_main_v27
  rw [gatherX_apply x0 _ e _ (col_u0 x2 e (hu e).1) (hu e).1 (hu e).2,
    gatherW_apply x1 _ e _ (col_w0 x4 e (hw e).1) (hw e).1 (hw e).2]
  rfl

/-- The first layer (no activation) at row i. -/
theorem layer0_apply (x0 : FVec Ideal S1000000x1 .f32) (x1 : FVec Ideal S1024 .f32) (x2 x3 x4 : IVec S2x16000000 32)
    (x5 : IVec S2x250000 32)
    (hu : ∀ e : Fin 16000000, 0 ≤ rowInt 0 x2 e ∧ rowInt 0 x2 e < 1000000)
    (hw : ∀ e : Fin 16000000, 0 ≤ rowInt 0 x4 e ∧ rowInt 0 x4 e < 1024)
    (ht : ∀ k : Fin 250000, 0 ≤ rowInt 0 x5 k) (i : Fin 1000000) :
    val_main_v35 (F := Ideal) x0 x1 x2 x3 x4 x5 (ix2 i (0 : Fin 1))
      = layer id (colFun (n := 1000000) x0) (vecFun (n := 1024) x1) (rowInt 0 x2) (rowInt 0 x3) (rowInt 0 x4) (rowInt 0 x5) i.val := by
  have hZ : val_main_v8 (F := Ideal) = fun _ => (0 : EReal) := by
    funext j; rw [val_main_v8_apply]; exact Ideal.ofBits_zero_f32
  have hZero : ∀ j, val_main_v32 (F := Ideal) j = 0 := by
    intro j; rw [val_main_v32_apply]; exact Ideal.ofBits_zero_f32
  have key := layer_of_pieces id x0 (val_main_v7 (F := Ideal) x5) (val_main_v8 (F := Ideal)) (val_main_v33 (F := Ideal) x3)
    (val_main_v32 (F := Ideal)) (val_main_v29 (F := Ideal) x0 x1 x2 x4) (vecFun (n := 1024) x1)
    (rowInt 0 x2) (rowInt 0 x3) (rowInt 0 x4) (rowInt 0 x5)
    (fun k => col_t0 x5 k (ht k)) hZ (fun e => col_v0 x3 e) hZero (fun e => msg0 x0 x1 x2 x4 hu hw e) i
  rw [id_eq] at key
  rw [val_main_v35_apply, Ideal.addf_def]
  unfold val_main_v9 val_main_v34
  exact key

/-! ## The second layer -/

/-- The second layer's message along edge e, over the first layer's result. -/
private theorem msg1 (x0 : FVec Ideal S1000000x1 .f32) (x1 : FVec Ideal S1024 .f32) (x2 x3 x4 : IVec S2x16000000 32)
    (x5 : IVec S2x250000 32)
    (hu : ∀ e : Fin 16000000, 0 ≤ rowInt 1 x2 e ∧ rowInt 1 x2 e < 1000000)
    (hw : ∀ e : Fin 16000000, 0 ≤ rowInt 1 x4 e ∧ rowInt 1 x4 e < 1024) (e : Fin 16000000) :
    val_main_v65 (F := Ideal) x0 x1 x2 x3 x4 x5 (ix2 e (0 : Fin 1))
      = colFun (n := 1000000) (val_main_v35 (F := Ideal) x0 x1 x2 x3 x4 x5) (rowInt 1 x2 e).toNat
          * vecFun (n := 1024) x1 (rowInt 1 x4 e).toNat := by
  have hi : idx_main_v64 (ix2 e (0 : Fin 1)) = ix1 e := by
    funext a; match a with | ⟨0, _⟩ => rfl
  rw [val_main_v65_apply, val_main_v64_apply, hi]
  unfold val_main_v54 val_main_v63
  rw [gatherX_apply (val_main_v35 (F := Ideal) x0 x1 x2 x3 x4 x5) _ e _ (col_u1 x2 e (hu e).1) (hu e).1 (hu e).2,
    gatherW_apply x1 _ e _ (col_w1 x4 e (hw e).1) (hw e).1 (hw e).2]
  rfl

/-- The second layer (tanh) at row i, over the first layer's result. -/
theorem layer1_apply (x0 : FVec Ideal S1000000x1 .f32) (x1 : FVec Ideal S1024 .f32) (x2 x3 x4 : IVec S2x16000000 32)
    (x5 : IVec S2x250000 32)
    (hu : ∀ e : Fin 16000000, 0 ≤ rowInt 1 x2 e ∧ rowInt 1 x2 e < 1000000)
    (hw : ∀ e : Fin 16000000, 0 ≤ rowInt 1 x4 e ∧ rowInt 1 x4 e < 1024)
    (ht : ∀ k : Fin 250000, 0 ≤ rowInt 1 x5 k) (i : Fin 1000000) :
    val_main_v72 (F := Ideal) x0 x1 x2 x3 x4 x5 (ix2 i (0 : Fin 1))
      = layer Ideal.tanh (colFun (n := 1000000) (val_main_v35 (F := Ideal) x0 x1 x2 x3 x4 x5)) (vecFun (n := 1024) x1)
          (rowInt 1 x2) (rowInt 1 x3) (rowInt 1 x4) (rowInt 1 x5) i.val := by
  have hZ : val_main_v44 (F := Ideal) = fun _ => (0 : EReal) := by
    funext j; rw [val_main_v44_apply]; exact Ideal.ofBits_zero_f32
  have hZero : ∀ j, val_main_v68 (F := Ideal) j = 0 := by
    intro j; rw [val_main_v68_apply]; exact Ideal.ofBits_zero_f32
  have key := layer_of_pieces Ideal.tanh (val_main_v35 (F := Ideal) x0 x1 x2 x3 x4 x5) (val_main_v43 (F := Ideal) x5)
    (val_main_v44 (F := Ideal)) (val_main_v69 (F := Ideal) x3) (val_main_v68 (F := Ideal))
    (val_main_v65 (F := Ideal) x0 x1 x2 x3 x4 x5) (vecFun (n := 1024) x1)
    (rowInt 1 x2) (rowInt 1 x3) (rowInt 1 x4) (rowInt 1 x5)
    (fun k => col_t1 x5 k (ht k)) hZ (fun e => col_v1 x3 e) hZero (fun e => msg1 x0 x1 x2 x3 x4 x5 hu hw e) i
  rw [val_main_v72_apply, val_main_v71_apply, Ideal.addf_def, Ideal.hostUnary_tanh_def]
  unfold val_main_v45 val_main_v70
  exact key

end Cert.ReferenceIdeal.Hand

end
-- ==== Proof.KerHost.lean ====
/-
  The host side of one layer of the kernel's program, as pure functions of the arrays it reads, and those functions
  read at an index over the extended reals.

  Between two launches the program works on the padded node state laid out flat, 1003520 entries. It gathers the
  state at the edge sources and the weights at the edge weight numbers (each gather wraps a negative index by the
  table's length and fills an index still outside the table with a fixed pattern), multiplies them edge by edge, adds
  the products into a zero array at the edge destinations, and builds the target mask by writing zero into an array of
  ones at the targets. Both results are then laid out as 7840 rows of 128.

  When every source lies in [0, 1000000) and every weight number in [0, 1024), no gather index is wrapped or filled,
  so entry (r, c) of the aggregate is the zero word plus the sum, over the edges whose destination is 128 r + c, of state
  at the source times weight; when every target is nonnegative, entry (r, c) of the mask is zero if some target is
  128 r + c and one otherwise.
-/
import proofs.«422089_j55628416417928_3_alg».proof.Proof.Gen.KernelIdeal
import proofs.«422089_j55628416417928_3_alg».proof.Proof.Spec
import proofs.«422089_j55628416417928_3_alg».proof.Proof.LibScatterRead
import Idealize.ShloMosaic.Lib.StableHlo.Predicate
import Idealize.ShloMosaic.Lib.IdealHost
import Idealize.ShloMosaic.Lib.Pipeline.Value

noncomputable section

open scoped BigOperators

namespace Cert.KernelIdeal.Hand

open Idealize.ShloMosaic Idealize.ShloMosaic.ValueIdx Cert.KernelIdeal Cert.KernelIdeal.Gen Cert.Spec

variable {F : FTy → Type} [FloatOps F]

/-! ## The host operations of one layer, composed -/

/-- Row `l` of a `[2, 16000000]` index table as a vector: the slice `[l:l+1, :]` reshaped. -/
def edgeRow0 (a : IVec S2x16000000 32) : IVec S16000000 32 :=
  shapeCast S16000000 (extractStridedSlice S1x16000000 ![0, 0] a slices_S2x16000000_S1x16000000_0_0) shapeCasts_S1x16000000_S16000000
def edgeRow1 (a : IVec S2x16000000 32) : IVec S16000000 32 :=
  shapeCast S16000000 (extractStridedSlice S1x16000000 ![1, 0] a slices_S2x16000000_S1x16000000_1_0) shapeCasts_S1x16000000_S16000000
def tgtRow0 (a : IVec S2x250000 32) : IVec S250000 32 :=
  shapeCast S250000 (extractStridedSlice S1x250000 ![0, 0] a slices_S2x250000_S1x250000_0_0) shapeCasts_S1x250000_S250000
def tgtRow1 (a : IVec S2x250000 32) : IVec S250000 32 :=
  shapeCast S250000 (extractStridedSlice S1x250000 ![1, 0] a slices_S2x250000_S1x250000_1_0) shapeCasts_S1x250000_S250000

/-- jnp.take of the flat padded state at the edge sources: negative indices wrapped by 1003520, indices outside
    [0, 1003519] filled. -/
def takeState (xflat : FVec F S1003520 .f32) (ul : IVec S16000000 32) : FVec F S16000000 .f32 :=
  let idx5 : IVec S16000000x1 32 := broadcastInDim S16000000x1 ![0] bcast_S16000000_S16000000x1_0
    (select (cmpi .slt ul (broadcastInDim S16000000 ![] bcast_S_S16000000 (constantI S_ 32 0#32)))
      (addi ul (broadcastInDim S16000000 ![] bcast_S_S16000000 (constantI S_ 32 1003520#32))) ul)
  select
    (Host.reduce IntOp.andi
      (andi (cmpi .sge idx5 (broadcastInDim S16000000x1 ![] bcast_S_S16000000x1 (constantI S_ 32 0#32)))
        (cmpi .sle idx5 (broadcastInDim S16000000x1 ![0, 1] bcast_S1x1_S16000000x1_0_1
          (broadcastInDim S1x1 ![1] bcast_S1_S1x1_1 (constantI S1 32 1003519#32)))))
      (constantI S_ 1 1#1) reducesTo_S16000000x1_S16000000_d1 h_S_)
    (Host.gather gather_S1003520_S16000000x1_S16000000_n_0_n_n_0_1_1 xflat idx5)
    (broadcastInDim S16000000 ![] bcast_S_S16000000 (constant S_ .f32 0x7FC00000#32))

/-- jnp.take of the weights at the edge weight numbers: negative indices wrapped by 1024, indices outside [0, 1023]
    filled. -/
def takeWeight (w : FVec F S1024 .f32) (wl : IVec S16000000 32) : FVec F S16000000 .f32 :=
  let idx5 : IVec S16000000x1 32 := broadcastInDim S16000000x1 ![0] bcast_S16000000_S16000000x1_0
    (select (cmpi .slt wl (broadcastInDim S16000000 ![] bcast_S_S16000000 (constantI S_ 32 0#32)))
      (addi wl (broadcastInDim S16000000 ![] bcast_S_S16000000 (constantI S_ 32 1024#32))) wl)
  select
    (Host.reduce IntOp.andi
      (andi (cmpi .sge idx5 (broadcastInDim S16000000x1 ![] bcast_S_S16000000x1 (constantI S_ 32 0#32)))
        (cmpi .sle idx5 (broadcastInDim S16000000x1 ![0, 1] bcast_S1x1_S16000000x1_0_1
          (broadcastInDim S1x1 ![1] bcast_S1_S1x1_1 (constantI S1 32 1023#32)))))
      (constantI S_ 1 1#1) reducesTo_S16000000x1_S16000000_d1 h_S_)
    (Host.gather gather_S1024_S16000000x1_S16000000_n_0_n_n_0_1_1 w idx5)
    (broadcastInDim S16000000 ![] bcast_S_S16000000 (constant S_ .f32 0x7FC00000#32))

/-- The aggregate of one layer, laid out as 7840 rows of 128: the edge products added into zeros at the edge
    destinations. -/
def hostAgg (xflat : FVec F S1003520 .f32) (w : FVec F S1024 .f32) (ul vl wl : IVec S16000000 32) : FVec F S7840x128 .f32 :=
  shapeCast S7840x128
    (Host.scatterAdd scatter_S1003520_S16000000x1_S16000000_n_0_0_1
      (broadcastInDim S1003520 ![] bcast_S_S1003520 (constant S_ .f32 0x00000000#32))
      (broadcastInDim S16000000x1 ![0] bcast_S16000000_S16000000x1_0 vl)
      (mulf (takeState xflat ul) (takeWeight w wl)))
    shapeCasts_S1003520_S7840x128

/-- The target mask of one layer, laid out as 7840 rows of 128: ones, with zero written at the targets (a negative
    target wrapped by 1003520). -/
def hostMask (tl : IVec S250000 32) : FVec F S7840x128 .f32 :=
  shapeCast S7840x128
    (Host.scatter scatter_S1003520_S250000x1_S250000_n_0_0_1 (fun _ b => b)
      (broadcastInDim S1003520 ![] bcast_S_S1003520 (constant S_ .f32 0x3F800000#32))
      (broadcastInDim S250000x1 ![0] bcast_S250000_S250000x1_0
        (select (cmpi .slt tl (broadcastInDim S250000 ![] bcast_S_S250000 (constantI S_ 32 0#32)))
          (addi tl (broadcastInDim S250000 ![] bcast_S_S250000 (constantI S_ 32 1003520#32))) tl))
      (broadcastInDim S250000 ![] bcast_S_S250000 (constant S_ .f32 0x00000000#32)))
    shapeCasts_S1003520_S7840x128

/-! ## The index rows read signed -/

theorem edgeRow0_apply (a : IVec S2x16000000 32) (e : Fin 16000000) : (edgeRow0 a (ix1 e)).toInt = rowInt 0 a e := by
  unfold edgeRow0 rowInt
  refine congrArg BitVec.toInt ?_
  refine (shapeCast_apply _ shapeCasts_S1x16000000_S16000000 (ix1 e) (ix2 (0 : Fin 1) e)
    (by rw [Shape.rowMajor_val_two, Shape.rowMajor_val_one]; show 0 * 16000000 + e.val = e.val; omega)).trans ?_
  exact extractStridedSlice_apply ![0, 0] a slices_S2x16000000_S1x16000000_0_0 (ix2 (0 : Fin 1) e) (ix2 (0 : Fin 2) e)
    (fun b => match b with
      | ⟨0, _⟩ => by show 0 = 0 + 0; omega
      | ⟨1, _⟩ => by show e.val = 0 + e.val; omega)
theorem edgeRow1_apply (a : IVec S2x16000000 32) (e : Fin 16000000) : (edgeRow1 a (ix1 e)).toInt = rowInt 1 a e := by
  unfold edgeRow1 rowInt
  refine congrArg BitVec.toInt ?_
  refine (shapeCast_apply _ shapeCasts_S1x16000000_S16000000 (ix1 e) (ix2 (0 : Fin 1) e)
    (by rw [Shape.rowMajor_val_two, Shape.rowMajor_val_one]; show 0 * 16000000 + e.val = e.val; omega)).trans ?_
  exact extractStridedSlice_apply ![1, 0] a slices_S2x16000000_S1x16000000_1_0 (ix2 (0 : Fin 1) e) (ix2 (1 : Fin 2) e)
    (fun b => match b with
      | ⟨0, _⟩ => by show 1 = 1 + 0; omega
      | ⟨1, _⟩ => by show e.val = 0 + e.val; omega)
theorem tgtRow0_apply (a : IVec S2x250000 32) (k : Fin 250000) : (tgtRow0 a (ix1 k)).toInt = rowInt 0 a k := by
  unfold tgtRow0 rowInt
  refine congrArg BitVec.toInt ?_
  refine (shapeCast_apply _ shapeCasts_S1x250000_S250000 (ix1 k) (ix2 (0 : Fin 1) k)
    (by rw [Shape.rowMajor_val_two, Shape.rowMajor_val_one]; show 0 * 250000 + k.val = k.val; omega)).trans ?_
  exact extractStridedSlice_apply ![0, 0] a slices_S2x250000_S1x250000_0_0 (ix2 (0 : Fin 1) k) (ix2 (0 : Fin 2) k)
    (fun b => match b with
      | ⟨0, _⟩ => by show 0 = 0 + 0; omega
      | ⟨1, _⟩ => by show k.val = 0 + k.val; omega)
theorem tgtRow1_apply (a : IVec S2x250000 32) (k : Fin 250000) : (tgtRow1 a (ix1 k)).toInt = rowInt 1 a k := by
  unfold tgtRow1 rowInt
  refine congrArg BitVec.toInt ?_
  refine (shapeCast_apply _ shapeCasts_S1x250000_S250000 (ix1 k) (ix2 (0 : Fin 1) k)
    (by rw [Shape.rowMajor_val_two, Shape.rowMajor_val_one]; show 0 * 250000 + k.val = k.val; omega)).trans ?_
  exact extractStridedSlice_apply ![1, 0] a slices_S2x250000_S1x250000_1_0 (ix2 (0 : Fin 1) k) (ix2 (1 : Fin 2) k)
    (fun b => match b with
      | ⟨0, _⟩ => by show 1 = 1 + 0; omega
      | ⟨1, _⟩ => by show k.val = 0 + k.val; omega)

/-! ## A take read at an index, when no index is wrapped or filled -/

/-- The rank-1 index at a coordinate, given by its value on the one axis or by cases on the axis: the same index. -/
private theorem ofFin_eq_ix1 {n : Nat} (k : Fin n) : Shape.Idx.ofFin k = ix1 k := by
  funext d
  match d with
  | ⟨0, _⟩ => exact Fin.ext rfl

/-- Row `p` of a column, given by either of two case splits on the axis: the same index. -/
private theorem ixP_eq_ix2 {n : Nat} (p : Fin n) : StableHlo.Predicate.ixP p = ix2 p (0 : Fin 1) := by
  funext d
  match d with
  | ⟨0, _⟩ => rfl
  | ⟨1, _⟩ => rfl

/-- A left fold by `and` from 1 over words that are all 1 is 1. -/
private theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from 1 of an array whose every word is 1 is 1 at every result index. -/
private theorem reduce_andi_of_all {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, x i = 1#1) : Host.reduce IntOp.andi x init h hu j = 1#1 := by
  rw [Host.reduce_eq_foldl, hinit]
  exact foldl_andi_one x hx _

/-- The index column of a take: a negative index wrapped by `m`, laid as a column. -/
private def wrapCol (v : IVec S16000000 32) (m : BitVec 32) : IVec S16000000x1 32 :=
  broadcastInDim S16000000x1 ![0] bcast_S16000000_S16000000x1_0
    (select (cmpi .slt v (broadcastInDim S16000000 ![] bcast_S_S16000000 (constantI S_ 32 0#32)))
      (addi v (broadcastInDim S16000000 ![] bcast_S_S16000000 (constantI S_ 32 m))) v)

/-- The validity flags of a take: the index column within [0, hi]. -/
private def inRange (idx : IVec S16000000x1 32) (hi : BitVec 32) : IVec S16000000x1 1 :=
  andi (cmpi .sge idx (broadcastInDim S16000000x1 ![] bcast_S_S16000000x1 (constantI S_ 32 0#32)))
    (cmpi .sle idx (broadcastInDim S16000000x1 ![0, 1] bcast_S1x1_S16000000x1_0_1
      (broadcastInDim S1x1 ![1] bcast_S1_S1x1_1 (constantI S1 32 hi))))

/-- A nonnegative index is not wrapped: the column at (p, q) is the index at p. -/
private theorem wrapCol_apply (v : IVec S16000000 32) (m : BitVec 32) (p : Fin 16000000) (q : Fin 1)
    (h0 : 0 ≤ (v (ix1 p)).toInt) : wrapCol v m (ix2 p q) = v (ix1 p) := by
  unfold wrapCol
  refine (broadcastInDim_apply _ bcast_S16000000_S16000000x1_0 _ (ix2 p q) (ix1 p)
    (fun a => match a with | ⟨0, _⟩ => rfl)).trans ?_
  show Scalar.select (IntOp.cmpi .slt (v (ix1 p)) 0#32) (IntOp.addi (v (ix1 p)) m) (v (ix1 p)) = v (ix1 p)
  have hc : IntOp.cmpi .slt (v (ix1 p)) 0#32 = 0#1 := eq_zero_of_ne_one (fun h => by
    have h1 := IntOp.cmpi_slt.1 h
    rw [show (0#32 : BitVec 32).toInt = 0 from by decide] at h1
    omega)
  rw [hc, select_zero]

/-- An index within [0, hi] has its flag set. -/
private theorem inRange_apply (idx : IVec S16000000x1 32) (hi : BitVec 32) (i : S16000000x1.Idx)
    (h0 : 0 ≤ (idx i).toInt) (h1 : (idx i).toInt ≤ hi.toInt) : inRange idx hi i = 1#1 := by
  show IntOp.andi (IntOp.cmpi .sge (idx i) 0#32) (IntOp.cmpi .sle (idx i) hi) = 1#1
  exact IntOp.andi_eq_one.2 ⟨IntOp.cmpi_sge.2 (by rw [show (0#32 : BitVec 32).toInt = 0 from by decide]; exact h0),
    IntOp.cmpi_sle.2 h1⟩

/-- A take from a table of length `N` at indices all in [0, N): entry `e` is the table at index `e`. -/
private theorem take_apply {N : Nat} (hN : 0 < N) (d : GatherDims ⟨1, ![N]⟩ S16000000x1 S16000000)
    (hcoll : d.collapsedSliceDims = [0]) (hob : d.operandBatchingDims = []) (hsim : d.startIndexMap = [0])
    (hivd : d.indexVectorDim = 1) (x : (⟨1, ![N]⟩ : Shape).Idx → EReal) (v : IVec S16000000 32) (m hi : BitVec 32)
    (fill : S16000000.Idx → EReal) (hhi : hi.toInt = (N : ℤ) - 1)
    (hv : ∀ e : Fin 16000000, 0 ≤ (v (ix1 e)).toInt ∧ (v (ix1 e)).toInt < (N : ℤ)) (e : Fin 16000000) :
    select (Host.reduce IntOp.andi (inRange (wrapCol v m) hi) (constantI S_ 1 1#1) reducesTo_S16000000x1_S16000000_d1 h_S_)
        (Host.gather d x (wrapCol v m)) fill (ix1 e)
      = vecFun x (v (ix1 e)).toInt.toNat := by
  have hflag : Host.reduce IntOp.andi (inRange (wrapCol v m) hi) (constantI S_ 1 1#1)
      reducesTo_S16000000x1_S16000000_d1 h_S_ (ix1 e) = 1#1 :=
    reduce_andi_of_all _ _ _ _ _ rfl (fun i => by
      obtain ⟨p, q, rfl⟩ : ∃ (p : Fin 16000000) (q : Fin 1), i = ix2 p q := ⟨i 0, i 1, eq_ix2 i⟩
      refine inRange_apply _ _ _ ?_ ?_
      · rw [wrapCol_apply v m p q (hv p).1]; exact (hv p).1
      · rw [wrapCol_apply v m p q (hv p).1, hhi]; have := (hv p).2; omega)
  rw [select_apply, hflag, select_one]
  have hg := StableHlo.Predicate.gather_take d hcoll hob hsim hivd x (wrapCol v m) e hN
  simp only [ofFin_eq_ix1, ixP_eq_ix2] at hg
  rw [hg]
  have hlt : (v (ix1 e)).toInt.toNat < N := by have := hv e; omega
  rw [vecFun_of_lt x _ hlt]
  refine congrArg (fun z => x (ix1 z)) (Fin.ext ?_)
  show min (wrapCol v m (ix2 e (0 : Fin 1))).toInt.toNat (N - 1) = (v (ix1 e)).toInt.toNat
  rw [wrapCol_apply v m e 0 (hv e).1]
  omega

/-- The take of the state, with its column and flags named. -/
private theorem takeState_eq (xflat : FVec Ideal S1003520 .f32) (ul : IVec S16000000 32) :
    takeState xflat ul
      = select (Host.reduce IntOp.andi (inRange (wrapCol ul 1003520#32) 1003519#32) (constantI S_ 1 1#1)
            reducesTo_S16000000x1_S16000000_d1 h_S_)
          (Host.gather gather_S1003520_S16000000x1_S16000000_n_0_n_n_0_1_1 xflat (wrapCol ul 1003520#32))
          (broadcastInDim S16000000 ![] bcast_S_S16000000 (constant (F := Ideal) S_ .f32 0x7FC00000#32)) := rfl

/-- The take of the weights, with its column and flags named. -/
private theorem takeWeight_eq (w : FVec Ideal S1024 .f32) (wl : IVec S16000000 32) :
    takeWeight w wl
      = select (Host.reduce IntOp.andi (inRange (wrapCol wl 1024#32) 1023#32) (constantI S_ 1 1#1)
            reducesTo_S16000000x1_S16000000_d1 h_S_)
          (Host.gather gather_S1024_S16000000x1_S16000000_n_0_n_n_0_1_1 w (wrapCol wl 1024#32))
          (broadcastInDim S16000000 ![] bcast_S_S16000000 (constant (F := Ideal) S_ .f32 0x7FC00000#32)) := rfl

/-- The state taken at sources all in [0, 1000000): entry `e` is the state at source `e`. -/
private theorem takeState_apply (xflat : FVec Ideal S1003520 .f32) (ul : IVec S16000000 32)
    (hu : ∀ e : Fin 16000000, 0 ≤ (ul (ix1 e)).toInt ∧ (ul (ix1 e)).toInt < 1000000) (e : Fin 16000000) :
    takeState xflat ul (ix1 e) = vecFun (n := 1003520) xflat (ul (ix1 e)).toInt.toNat := by
  rw [takeState_eq]
  exact take_apply (N := 1003520) (by decide) gather_S1003520_S16000000x1_S16000000_n_0_n_n_0_1_1 rfl rfl rfl rfl
    xflat ul 1003520#32 1003519#32 _ (by decide) (fun e => ⟨(hu e).1, by have := (hu e).2; omega⟩) e

/-- The weights taken at weight numbers all in [0, 1024): entry `e` is the weight of number `e`. -/
private theorem takeWeight_apply (w : FVec Ideal S1024 .f32) (wl : IVec S16000000 32)
    (hw : ∀ e : Fin 16000000, 0 ≤ (wl (ix1 e)).toInt ∧ (wl (ix1 e)).toInt < 1024) (e : Fin 16000000) :
    takeWeight w wl (ix1 e) = vecFun (n := 1024) w (wl (ix1 e)).toInt.toNat := by
  rw [takeWeight_eq]
  exact take_apply (N := 1024) (by decide) gather_S1024_S16000000x1_S16000000_n_0_n_n_0_1_1 rfl rfl rfl rfl
    w wl 1024#32 1023#32 _ (by decide) (fun e => ⟨(hw e).1, by have := (hw e).2; omega⟩) e

/-- The accumulating scatter of one layer read at a flat position, for any operand, destination column and updates. -/
private theorem scatterAdd_read (x : FVec Ideal S1003520 .f32) (idx : IVec S16000000x1 32)
    (upd : FVec Ideal S16000000 .f32) (k : Fin 1003520) :
    Host.scatterAdd scatter_S1003520_S16000000x1_S16000000_n_0_0_1 x idx upd (ix1 k)
      = x (ix1 k) + ∑ n : Fin 16000000, if (idx (ix2 n (0 : Fin 1))).toInt = (k.val : ℤ) then upd (ix1 n) else 0 :=
  Cert.Lib.ScatterRead.scatterAdd_vec_apply scatter_S1003520_S16000000x1_S16000000_n_0_0_1 rfl rfl rfl rfl x idx upd k

/-- The aggregate's layout read at (r, c), for any operand, destinations and updates: the operand at the flat
    position 128 r + c plus the sum of the updates whose destination is that position. -/
private theorem agg_read (x0 : FVec Ideal S1003520 .f32) (vl : IVec S16000000 32) (upd : FVec Ideal S16000000 .f32)
    (r : Fin 7840) (c : Fin 128) (hk : r.val * 128 + c.val < 1003520) :
    shapeCast S7840x128
        (Host.scatterAdd scatter_S1003520_S16000000x1_S16000000_n_0_0_1 x0
          (broadcastInDim S16000000x1 ![0] bcast_S16000000_S16000000x1_0 vl) upd)
        shapeCasts_S1003520_S7840x128 (ix2 r c)
      = x0 (ix1 ⟨r.val * 128 + c.val, hk⟩)
        + ∑ e : Fin 16000000, if (vl (ix1 e)).toInt = ((r.val * 128 + c.val : ℕ) : ℤ) then upd (ix1 e) else 0 := by
  refine (shapeCast_apply _ shapeCasts_S1003520_S7840x128 (ix2 r c) (ix1 ⟨r.val * 128 + c.val, hk⟩)
    (by rw [Shape.rowMajor_val_one, Shape.rowMajor_val_two]; rfl)).trans ?_
  refine (scatterAdd_read _ _ _ ⟨r.val * 128 + c.val, hk⟩).trans ?_
  refine congrArg (fun z => x0 (ix1 ⟨r.val * 128 + c.val, hk⟩) + z) (Finset.sum_congr rfl fun e _ => ?_)
  have hcol : broadcastInDim S16000000x1 ![0] bcast_S16000000_S16000000x1_0 vl (ix2 e (0 : Fin 1)) = vl (ix1 e) :=
    broadcastInDim_apply _ bcast_S16000000_S16000000x1_0 vl (ix2 e (0 : Fin 1)) (ix1 e)
      (fun a => match a with | ⟨0, _⟩ => rfl)
  rw [hcol]

/-! ## The mask and the aggregate at an entry, over the extended reals -/

/-- The mask at (r, c): zero when some target is 128 r + c, one otherwise (every target nonnegative). -/
theorem hostMask_apply (tl : IVec S250000 32) (ht : ∀ k : Fin 250000, 0 ≤ (tl (ix1 k)).toInt) (r : Fin 7840) (c : Fin 128) :
    hostMask (F := Ideal) tl (ix2 r c)
      = if ∃ k : Fin 250000, (tl (ix1 k)).toInt = ((r.val * 128 + c.val : ℕ) : ℤ) then (0 : EReal) else 1 := by
  have hk : r.val * 128 + c.val < 1003520 := by have := r.isLt; have := c.isLt; omega
  unfold hostMask
  refine (shapeCast_apply _ shapeCasts_S1003520_S7840x128 (ix2 r c) (ix1 ⟨r.val * 128 + c.val, hk⟩)
    (by rw [Shape.rowMajor_val_one, Shape.rowMajor_val_two]; rfl)).trans ?_
  -- every update is the zero word, read as the extended real zero
  have hupd : broadcastInDim S250000 ![] bcast_S_S250000 (constant (F := Ideal) S_ .f32 0x00000000#32)
      = fun _ => (0 : EReal) := by
    funext j
    exact Ideal.ofBits_zero_f32
  rw [hupd]
  refine (Cert.Lib.ScatterRead.scatter_set_vec_apply scatter_S1003520_S250000x1_S250000_n_0_0_1 rfl rfl rfl rfl _ _
    (0 : EReal) ⟨r.val * 128 + c.val, hk⟩).trans ?_
  -- a nonnegative target is not wrapped: the index column at (n, 0) is the target itself
  have hidx : ∀ n : Fin 250000,
      broadcastInDim S250000x1 ![0] bcast_S250000_S250000x1_0
        (select (cmpi .slt tl (broadcastInDim S250000 ![] bcast_S_S250000 (constantI S_ 32 0#32)))
          (addi tl (broadcastInDim S250000 ![] bcast_S_S250000 (constantI S_ 32 1003520#32))) tl) (ix2 n (0 : Fin 1))
        = tl (ix1 n) := by
    intro n
    refine (broadcastInDim_apply _ bcast_S250000_S250000x1_0 _ (ix2 n (0 : Fin 1)) (ix1 n)
      (fun a => match a with | ⟨0, _⟩ => rfl)).trans ?_
    show Scalar.select (IntOp.cmpi .slt (tl (ix1 n)) 0#32) (IntOp.addi (tl (ix1 n)) 1003520#32) (tl (ix1 n)) = tl (ix1 n)
    have h0 : IntOp.cmpi .slt (tl (ix1 n)) 0#32 = 0#1 := eq_zero_of_ne_one (fun h => by
      have h1 := IntOp.cmpi_slt.1 h
      rw [show (0#32 : BitVec 32).toInt = 0 from by decide] at h1
      have h2 := ht n
      omega)
    rw [h0, select_zero]
  simp only [hidx]
  have hone : broadcastInDim S1003520 ![] bcast_S_S1003520 (constant (F := Ideal) S_ .f32 0x3F800000#32)
      (ix1 ⟨r.val * 128 + c.val, hk⟩) = (1 : EReal) := Ideal.ofBits_one_f32
  rw [hone]

/-- The aggregate at (r, c): zero plus the sum over the edges into 128 r + c of the state at the source times the
    weight (every source in [0, 1000000), every weight number in [0, 1024)). -/
theorem hostAgg_apply (xflat : FVec Ideal S1003520 .f32) (w : FVec Ideal S1024 .f32) (ul vl wl : IVec S16000000 32)
    (hu : ∀ e : Fin 16000000, 0 ≤ (ul (ix1 e)).toInt ∧ (ul (ix1 e)).toInt < 1000000)
    (hw : ∀ e : Fin 16000000, 0 ≤ (wl (ix1 e)).toInt ∧ (wl (ix1 e)).toInt < 1024) (r : Fin 7840) (c : Fin 128) :
    hostAgg (F := Ideal) xflat w ul vl wl (ix2 r c)
      = (0 : EReal) + ∑ e : Fin 16000000,
          if (vl (ix1 e)).toInt = ((r.val * 128 + c.val : ℕ) : ℤ)
          then vecFun (n := 1003520) xflat (ul (ix1 e)).toInt.toNat * vecFun (n := 1024) w (wl (ix1 e)).toInt.toNat else 0 := by
  have hk : r.val * 128 + c.val < 1003520 := by have := r.isLt; have := c.isLt; omega
  unfold hostAgg
  rw [agg_read _ vl _ r c hk]
  -- the operand is the zero word everywhere, read as the extended real zero
  have hzero : broadcastInDim S1003520 ![] bcast_S_S1003520 (constant (F := Ideal) S_ .f32 0x00000000#32)
      (ix1 ⟨r.val * 128 + c.val, hk⟩) = (0 : EReal) := Ideal.ofBits_zero_f32
  rw [hzero]
  -- the update at edge e is the product of the two takes at e
  refine congrArg (fun z => (0 : EReal) + z) (Finset.sum_congr rfl fun e _ => ?_)
  rw [mulf_apply, takeState_apply xflat ul hu e, takeWeight_apply w wl hw e]

end Cert.KernelIdeal.Hand

end
-- ==== Proof.KerRegions.lean ====
/-
  What each of the two launches leaves in its output array, as one function of its three input arrays.

  Both launches walk the 7840 x 128 arrays in ten blocks of 784 rows. At a grid point the body loads the point's
  block of the state, of the mask and of the aggregate and stores state times mask plus the aggregate (first launch)
  or plus tanh of the aggregate (second launch), entry by entry. All four windows use the same block index at a point,
  so the block a point writes back is that block of the entry-by-entry combination of the whole input arrays; the ten
  blocks cover the array, so the array ends holding the combination everywhere.
-/
import proofs.«422089_j55628416417928_3_alg».proof.Proof.Gen.KernelIdeal.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

theorem hz : (![0, 0] : Fin 2 → Nat) = fun _ => 0 := funext fun a => by fin_cases a <;> rfl

/-- State times mask plus aggregate, entry by entry. -/
abbrev comb0 (x mk ag : S7840x128.Idx → Elt F .f32) : S7840x128.Idx → Elt F .f32 :=
  fun i => FloatOps.addf (FloatOps.mulf (x i) (mk i)) (ag i)

/-- State times mask plus tanh of the aggregate, entry by entry. -/
abbrev comb1 (x mk ag : S7840x128.Idx → Elt F .f32) : S7840x128.Idx → Elt F .f32 :=
  fun i => FloatOps.addf (FloatOps.mulf (x i) (mk i)) (FloatOps.tanh (ag i))

/-! ## Region 0: state times mask plus the aggregate -/

/-- The body's one store: the state block times the mask block plus the aggregate block, entry by entry (the body's
    shape casts are between equal shapes). -/
theorem pay0_apply (v0 v2 v4 : Vec F S784x128 .f32) (j : S784x128.Idx) :
    k0_pay1 v0 v2 v4 j = FloatOps.addf (FloatOps.mulf (v2 j) (v4 j)) (v0 j) := by
  unfold k0_pay1
  simp only [shapeCast_self]
  rfl

/-- The same as one function of the block index. -/
theorem pay0_eq (v0 v2 v4 : Vec F S784x128 .f32) :
    k0_pay1 v0 v2 v4 = fun j => FloatOps.addf (FloatOps.mulf (v2 j) (v4 j)) (v0 j) :=
  funext fun j => pay0_apply v0 v2 v4 j

/-- The four windows' index maps, decided over the ten grid points: every input window moves with the output window,
    whose block row is at most 9 and block column 0. -/
theorem idx_facts0 : ∀ t : Fin cfg0.N, win0_0.index t (0 : Fin 2) = win0_3.index t (0 : Fin 2)
    ∧ win0_0.index t (1 : Fin 2) = win0_3.index t (1 : Fin 2)
    ∧ win0_1.index t (0 : Fin 2) = win0_3.index t (0 : Fin 2)
    ∧ win0_1.index t (1 : Fin 2) = win0_3.index t (1 : Fin 2)
    ∧ win0_2.index t (0 : Fin 2) = win0_3.index t (0 : Fin 2)
    ∧ win0_2.index t (1 : Fin 2) = win0_3.index t (1 : Fin 2)
    ∧ win0_3.index t (0 : Fin 2) ≤ 9 ∧ win0_3.index t (1 : Fin 2) ≤ 0 :=
  (by decide +kernel : ∀ t : Fin grid0.N, _)

/-- Every block row of the array is some point's. -/
theorem idx_onto0 : ∀ (q0 : Fin 10) (q1 : Fin 1), ∃ t : Fin cfg0.N, win0_3.index t = ![q0.val, q1.val] :=
  (by decide +kernel : ∀ (q0 : Fin 10) (q1 : Fin 1), ∃ t : Fin grid0.N, win0_3.index t = ![q0.val, q1.val])

/-- What point `t` writes back is block `t` of the entry-by-entry combination of the three input arrays as the
    region finds them. -/
theorem flushed0_eq (c : Dev nD) (t : Fin cfg0.N) :
    (dat0 V c).flushed 3 t = ((cfg0.win 3).blk t).view.read (Elt F)
      (comb0 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S784x128) hz]
  rw [pay0_eq]
  obtain ⟨e0, e1, e2, e3, e4, e5, e6, e7⟩ := idx_facts0 t
  funext j
  show FloatOps.addf (FloatOps.mulf (V c (Pipeline.arrRef spec0 0) (((cfg0.win 0).blk t).view.emb j)) (V c (Pipeline.arrRef spec0 1) (((cfg0.win 1).blk t).view.emb j)))
      (V c (Pipeline.arrRef spec0 2) (((cfg0.win 2).blk t).view.emb j))
    = FloatOps.addf (FloatOps.mulf (V c (Pipeline.arrRef spec0 0) (((cfg0.win 3).blk t).view.emb j)) (V c (Pipeline.arrRef spec0 1) (((cfg0.win 3).blk t).view.emb j)))
      (V c (Pipeline.arrRef spec0 2) (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 784 + 1 * (j 0).val = win0_3.index t (0 : Fin 2) * 784 + 1 * (j 0).val; omega
    | ⟨1, _⟩ => show win0_0.index t (1 : Fin 2) * 128 + 1 * (j 1).val = win0_3.index t (1 : Fin 2) * 128 + 1 * (j 1).val; omega
  have h1 : ((cfg0.win 1).blk t).view.emb j = ((cfg0.win 3).blk t).view.emb j := by
    funext a; apply Fin.ext
    match a with
    | ⟨0, _⟩ => show win0_1.index t (0 : Fin 2) * 784 + 1 * (j 0).val = win0_3.index t (0 : Fin 2) * 784 + 1 * (j 0).val; omega
    | ⟨1, _⟩ => show win0_1.index t (1 : Fin 2) * 128 + 1 * (j 1).val = win0_3.index t (1 : Fin 2) * 128 + 1 * (j 1).val; omega
  have h2 : ((cfg0.win 2).blk t).view.emb j = ((cfg0.win 3).blk t).view.emb j := by
    funext a; apply Fin.ext
    match a with
    | ⟨0, _⟩ => show win0_2.index t (0 : Fin 2) * 784 + 1 * (j 0).val = win0_3.index t (0 : Fin 2) * 784 + 1 * (j 0).val; omega
    | ⟨1, _⟩ => show win0_2.index t (1 : Fin 2) * 128 + 1 * (j 1).val = win0_3.index t (1 : Fin 2) * 128 + 1 * (j 1).val; omega
  rw [h0, h1, h2]

/-- An index of the array is in point `t`'s block iff each coordinate is in the block's range on its axis. -/
theorem mem_blk0 (t : Fin cfg0.N) (i : S7840x128.Idx) :
    i ∈ ((cfg0.win 3).blk t).view.set ↔ ∀ a : Fin 2, win0_3.index t a * S784x128.size a ≤ (i a).val ∧ (i a).val < win0_3.index t a * S784x128.size a + S784x128.size a := by
  show i ∈ ((View.whole main_call0_v29).slice (win0_3.rect t)).set ↔ _
  rw [View.set_slice_whole, Rect.mem_set_unit]
  exact Iff.rfl

/-- The ten blocks of 784 rows cover the 7840 rows: row r is in the block of the point whose block row is r / 784. -/
theorem cover0 (i : S7840x128.Idx) :
    ∃ t : Fin cfg0.N, (cfg0.win 3).flush t = true ∧ i ∈ ((cfg0.win 3).blk t).view.set := by
  have hi0 : (i 0).val < 7840 := (i 0).isLt
  have hi1 : (i 1).val < 128 := (i 1).isLt
  obtain ⟨t, ht⟩ := idx_onto0 ⟨(i 0).val / 784, by omega⟩ ⟨(i 1).val / 128, by omega⟩
  have q0 : win0_3.index t (0 : Fin 2) = (i 0).val / 784 := congrFun ht 0
  have q1 : win0_3.index t (1 : Fin 2) = (i 1).val / 128 := congrFun ht 1
  refine ⟨t, flush0_3 t, ?_⟩
  rw [mem_blk0]
  intro a
  match a with
  | ⟨0, _⟩ => show win0_3.index t (0 : Fin 2) * 784 ≤ (i 0).val ∧ (i 0).val < win0_3.index t (0 : Fin 2) * 784 + 784; omega
  | ⟨1, _⟩ => show win0_3.index t (1 : Fin 2) * 128 ≤ (i 1).val ∧ (i 1).val < win0_3.index t (1 : Fin 2) * 128 + 128; omega

/-- The output array after the region: the combination of the three input arrays, entry by entry. -/
theorem final0 (c : Dev nD) :
    (dat0 V c).arrAt 3 cfg0.N
      = comb0 (V c (Pipeline.arrRef spec0 0)) (V c (Pipeline.arrRef spec0 1)) (V c (Pipeline.arrRef spec0 2)) :=
  (dat0 V c).arrAt_eq_of_cover 3 _ (fun t _ => flushed0_eq V c t) (cover0)

/-! ## Region 1: state times mask plus tanh of the aggregate -/

/-- The body's one store: the state block times the mask block plus tanh of the aggregate block, entry by entry (the body's
    shape casts are between equal shapes). -/
theorem pay1_apply (v0 v2 v4 : Vec F S784x128 .f32) (j : S784x128.Idx) :
    k1_pay1 v0 v2 v4 j = FloatOps.addf (FloatOps.mulf (v2 j) (v4 j)) (FloatOps.tanh (v0 j)) := by
  unfold k1_pay1
  simp only [shapeCast_self]
  rfl

/-- The same as one function of the block index. -/
theorem pay1_eq (v0 v2 v4 : Vec F S784x128 .f32) :
    k1_pay1 v0 v2 v4 = fun j => FloatOps.addf (FloatOps.mulf (v2 j) (v4 j)) (FloatOps.tanh (v0 j)) :=
  funext fun j => pay1_apply v0 v2 v4 j

/-- The four windows' index maps, decided over the ten grid points: every input window moves with the output window,
    whose block row is at most 9 and block column 0. -/
theorem idx_facts1 : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = win1_3.index t (1 : Fin 2)
    ∧ win1_3.index t (0 : Fin 2) ≤ 9 ∧ win1_3.index t (1 : Fin 2) ≤ 0 :=
  (by decide +kernel : ∀ t : Fin grid1.N, _)

/-- Every block row of the array is some point's. -/
theorem idx_onto1 : ∀ (q0 : Fin 10) (q1 : Fin 1), ∃ t : Fin cfg1.N, win1_3.index t = ![q0.val, q1.val] :=
  (by decide +kernel : ∀ (q0 : Fin 10) (q1 : Fin 1), ∃ t : Fin grid1.N, win1_3.index t = ![q0.val, q1.val])

/-- What point `t` writes back is block `t` of the entry-by-entry combination of the three input arrays as the
    region finds them. -/
theorem flushed1_eq (c : Dev nD) (t : Fin cfg1.N) :
    (dat1 V c).flushed 3 t = ((cfg1.win 3).blk t).view.read (Elt F)
      (comb1 (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz]
  simp only [View.ld_unit_zero (S := S784x128) hz]
  rw [pay1_eq]
  obtain ⟨e0, e1, e2, e3, e4, e5, e6, e7⟩ := idx_facts1 t
  funext j
  show FloatOps.addf (FloatOps.mulf (V c (Pipeline.arrRef spec1 0) (((cfg1.win 0).blk t).view.emb j)) (V c (Pipeline.arrRef spec1 1) (((cfg1.win 1).blk t).view.emb j)))
      (FloatOps.tanh (V c (Pipeline.arrRef spec1 2) (((cfg1.win 2).blk t).view.emb j)))
    = FloatOps.addf (FloatOps.mulf (V c (Pipeline.arrRef spec1 0) (((cfg1.win 3).blk t).view.emb j)) (V c (Pipeline.arrRef spec1 1) (((cfg1.win 3).blk t).view.emb j)))
      (FloatOps.tanh (V c (Pipeline.arrRef spec1 2) (((cfg1.win 3).blk t).view.emb j)))
  have h0 : ((cfg1.win 0).blk t).view.emb j = ((cfg1.win 3).blk t).view.emb j := by
    funext a; apply Fin.ext
    match a with
    | ⟨0, _⟩ => show win1_0.index t (0 : Fin 2) * 784 + 1 * (j 0).val = win1_3.index t (0 : Fin 2) * 784 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 784 + 1 * (j 0).val = win1_3.index t (0 : Fin 2) * 784 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 784 + 1 * (j 0).val = win1_3.index t (0 : Fin 2) * 784 + 1 * (j 0).val; omega
    | ⟨1, _⟩ => show win1_2.index t (1 : Fin 2) * 128 + 1 * (j 1).val = win1_3.index t (1 : Fin 2) * 128 + 1 * (j 1).val; omega
  rw [h0, h1, h2]

/-- An index of the array is in point `t`'s block iff each coordinate is in the block's range on its axis. -/
theorem mem_blk1 (t : Fin cfg1.N) (i : S7840x128.Idx) :
    i ∈ ((cfg1.win 3).blk t).view.set ↔ ∀ a : Fin 2, win1_3.index t a * S784x128.size a ≤ (i a).val ∧ (i a).val < win1_3.index t a * S784x128.size a + S784x128.size a := by
  show i ∈ ((View.whole main_call0_v56).slice (win1_3.rect t)).set ↔ _
  rw [View.set_slice_whole, Rect.mem_set_unit]
  exact Iff.rfl

/-- The ten blocks of 784 rows cover the 7840 rows: row r is in the block of the point whose block row is r / 784. -/
theorem cover1 (i : S7840x128.Idx) :
    ∃ t : Fin cfg1.N, (cfg1.win 3).flush t = true ∧ i ∈ ((cfg1.win 3).blk t).view.set := by
  have hi0 : (i 0).val < 7840 := (i 0).isLt
  have hi1 : (i 1).val < 128 := (i 1).isLt
  obtain ⟨t, ht⟩ := idx_onto1 ⟨(i 0).val / 784, by omega⟩ ⟨(i 1).val / 128, by omega⟩
  have q0 : win1_3.index t (0 : Fin 2) = (i 0).val / 784 := congrFun ht 0
  have q1 : win1_3.index t (1 : Fin 2) = (i 1).val / 128 := congrFun ht 1
  refine ⟨t, flush1_3 t, ?_⟩
  rw [mem_blk1]
  intro a
  match a with
  | ⟨0, _⟩ => show win1_3.index t (0 : Fin 2) * 784 ≤ (i 0).val ∧ (i 0).val < win1_3.index t (0 : Fin 2) * 784 + 784; omega
  | ⟨1, _⟩ => show win1_3.index t (1 : Fin 2) * 128 ≤ (i 1).val ∧ (i 1).val < win1_3.index t (1 : Fin 2) * 128 + 128; omega

/-- The output array after the region: the combination of the three input arrays, entry by entry. -/
theorem final1 (c : Dev nD) :
    (dat1 V c).arrAt 3 cfg1.N
      = comb1 (V c (Pipeline.arrRef spec1 0)) (V c (Pipeline.arrRef spec1 1)) (V c (Pipeline.arrRef spec1 2)) :=
  (dat1 V c).arrAt_eq_of_cover 3 _ (fun t _ => flushed1_eq V c t) (cover1)

end Cert.KernelIdeal.Hand

end
-- ==== Proof.LibTypedRef.lean ====
/-
  General lemma: typed references' transports cancel.
  A host function that jax outlined (log_softmax, take_along_axis, …) prints over typed references, whose operations move a
  value to the buffer's own type and back (a cast along the reference's type equation). Reading a line of such operations
  with the library's result lemmas leaves every stage wrapped in `ofBuf (toBuf v)`; this lemma removes the wrapping,
  for any typed reference, with no look at the signature's tables — apply it by `simp only` before comparing the composed term
  with its stages.
-/
import Idealize.ShloMosaic.Lib.StableHlo

noncomputable section

open Idealize.ShloMosaic Idealize.ShloMosaic.StableHlo

namespace Cert.Lib.TypedRef

/-- A value moved to a typed reference's buffer type and back is the value. -/
theorem ofBuf_toBuf {sig : RefSig} {Val : EltTy → Type} {T : BufTy} (x : TRef sig T) (v : T.Contents Val) :
    x.ofBuf (x.toBuf v) = v := by
  unfold TRef.ofBuf TRef.toBuf
  simp only [cast_cast, cast_eq]

end Cert.Lib.TypedRef

end
-- ==== Proof.KerValue.lean ====
/-
  The kernel program's run, read as values: what each buffer holds at the boundaries between the host stretches and
  the two launches, down to the result buffer, as functions of the program's arguments.

  Before the first launch the host pads the state column to 1003520 entries and lays it out as 7840 rows of 128, and
  builds the first layer's aggregate and target mask from it and from row 0 of the index tables. The first launch
  leaves state times mask plus aggregate. The host then builds the second layer's aggregate and mask from that array and
  row 1 of the index tables; the second launch leaves state times mask plus tanh of the aggregate; the host flattens it,
  keeps the first 1000000 entries and returns them as a column.

  Read in row-major order, each launch's output is the abstract layer of Spec.lean applied to the flat reading of its
  input state, at every position below 1003520; the padded initial state reads as the state column below 1000000; and
  row i of the result is the flat reading of the second launch's output at i.
-/
import proofs.«422089_j55628416417928_3_alg».proof.Proof.Gen.KernelIdeal.Frame
import proofs.«422089_j55628416417928_3_alg».proof.Proof.KerHost
import proofs.«422089_j55628416417928_3_alg».proof.Proof.KerRegions
import proofs.«422089_j55628416417928_3_alg».proof.Proof.LibTypedRef
import proofs.«422089_j55628416417928_3_alg».proof.Proof.Spec
import Idealize.ShloMosaic.Lib.StableHlo.Run
import Idealize.ShloMosaic.Lib.KernelVsHost
import Idealize.ShloMosaic.Lib.IdealHost

set_option maxRecDepth 16384

noncomputable section

open scoped BigOperators

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem Idealize.ShloMosaic.StableHlo

variable {F : FTy → Type} [FloatOps F]

/-! ## The host stretches, over any contents at their start -/

/-- The state column padded with 3520 more entries and laid out as 7840 rows of 128. -/
def padState (a0 : FVec F S1000000x1 .f32) : FVec F S7840x128 .f32 :=
  shapeCast S7840x128
    (pad S1003520 ![0] ![3520] ![0] (shapeCast S1000000 a0 shapeCasts_S1000000x1_S1000000)
      (sitofp .f32 (constantI S_ 32 0#32)) pads_S1000000_S1003520_035200 h_S_)
    shapeCasts_S1003520_S7840x128

set_option maxHeartbeats 4000000 in
/-- After the first stretch the state buffer holds the padded state. -/
theorem after0_v2 (V : Valuation τ sig (Elt F)) :
    StableHlo.after hostOps0 V (Proc.devRef .tc main_call0_v2) = padState (V (Proc.devRef .tc main_arg0)) := by
  after_results_simp
  rfl

set_option maxHeartbeats 4000000 in
/-- After the stretch, the mask buffer holds the target mask of the layer's row of targets. -/
theorem after0_v28 (V : Valuation τ sig (Elt F)) :
    StableHlo.after hostOps0 V (Proc.devRef .tc main_call0_v28) = hostMask (tgtRow0 (V (Proc.devRef .tc main_arg5))) := by
  have key : ∀ R : FVec F S7840x128 .f32, R = hostMask (tgtRow0 (V (Proc.devRef .tc main_arg5))) →
      StableHlo.after hostOps0 V (Proc.devRef .tc main_call0_v28) = R := by
    intro R hR
    after_results_simp
    simp only [Cert.Lib.TypedRef.ofBuf_toBuf]
    refine Eq.trans ?_ hR.symm
    unfold hostMask
    refine congrArg (fun x => shapeCast S7840x128 x shapeCasts_S1003520_S7840x128) ?_
    refine eq_of_heq ((cast_heq _ _).trans (heq_of_eq ?_))
    refine congr (congr (congrArg _ ?_) ?_) ?_ <;> rfl
  exact key _ rfl

set_option maxHeartbeats 4000000 in
/-- After the stretch, the aggregate buffer holds the layer's aggregate of the flat state and the layer's rows of the
    index tables. -/
theorem after0_v27 (V : Valuation τ sig (Elt F)) :
    StableHlo.after hostOps0 V (Proc.devRef .tc main_call0_v27)
      = hostAgg (shapeCast S1003520 (padState (V (Proc.devRef .tc main_arg0))) shapeCasts_S7840x128_S1003520) (V (Proc.devRef .tc main_arg1)) (edgeRow0 (V (Proc.devRef .tc main_arg2))) (edgeRow0 (V (Proc.devRef .tc main_arg3))) (edgeRow0 (V (Proc.devRef .tc main_arg4))) := by
  have key : ∀ R : FVec F S7840x128 .f32,
      R = hostAgg (shapeCast S1003520 (padState (V (Proc.devRef .tc main_arg0))) shapeCasts_S7840x128_S1003520) (V (Proc.devRef .tc main_arg1)) (edgeRow0 (V (Proc.devRef .tc main_arg2))) (edgeRow0 (V (Proc.devRef .tc main_arg3))) (edgeRow0 (V (Proc.devRef .tc main_arg4))) →
      StableHlo.after hostOps0 V (Proc.devRef .tc main_call0_v27) = R := by
    intro R hR
    after_results_simp
    simp only [Cert.Lib.TypedRef.ofBuf_toBuf]
    refine Eq.trans ?_ hR.symm
    rfl
  exact key _ rfl

set_option maxHeartbeats 4000000 in
/-- After the stretch, the mask buffer holds the target mask of the layer's row of targets. -/
theorem after1_v55 (V : Valuation τ sig (Elt F)) :
    StableHlo.after hostOps1 V (Proc.devRef .tc main_call0_v55) = hostMask (tgtRow1 (V (Proc.devRef .tc main_arg5))) := by
  have key : ∀ R : FVec F S7840x128 .f32, R = hostMask (tgtRow1 (V (Proc.devRef .tc main_arg5))) →
      StableHlo.after hostOps1 V (Proc.devRef .tc main_call0_v55) = R := by
    intro R hR
    after_results_simp
    simp only [Cert.Lib.TypedRef.ofBuf_toBuf]
    refine Eq.trans ?_ hR.symm
    unfold hostMask
    refine congrArg (fun x => shapeCast S7840x128 x shapeCasts_S1003520_S7840x128) ?_
    refine eq_of_heq ((cast_heq _ _).trans (heq_of_eq ?_))
    refine congr (congr (congrArg _ ?_) ?_) ?_ <;> rfl
  exact key _ rfl

set_option maxHeartbeats 4000000 in
/-- After the stretch, the aggregate buffer holds the layer's aggregate of the flat state and the layer's rows of the
    index tables. -/
theorem after1_v54 (V : Valuation τ sig (Elt F)) :
    StableHlo.after hostOps1 V (Proc.devRef .tc main_call0_v54)
      = hostAgg (shapeCast S1003520 (V (Proc.devRef .tc main_call0_v29)) shapeCasts_S7840x128_S1003520) (V (Proc.devRef .tc main_arg1)) (edgeRow1 (V (Proc.devRef .tc main_arg2))) (edgeRow1 (V (Proc.devRef .tc main_arg3))) (edgeRow1 (V (Proc.devRef .tc main_arg4))) := by
  have key : ∀ R : FVec F S7840x128 .f32,
      R = hostAgg (shapeCast S1003520 (V (Proc.devRef .tc main_call0_v29)) shapeCasts_S7840x128_S1003520) (V (Proc.devRef .tc main_arg1)) (edgeRow1 (V (Proc.devRef .tc main_arg2))) (edgeRow1 (V (Proc.devRef .tc main_arg3))) (edgeRow1 (V (Proc.devRef .tc main_arg4))) →
      StableHlo.after hostOps1 V (Proc.devRef .tc main_call0_v54) = R := by
    intro R hR
    after_results_simp
    simp only [Cert.Lib.TypedRef.ofBuf_toBuf]
    refine Eq.trans ?_ hR.symm
    rfl
  exact key _ rfl

set_option maxHeartbeats 4000000 in
/-- The second stretch leaves the first launch's output where it is, -/
theorem after1_v29 (V : Valuation τ sig (Elt F)) :
    StableHlo.after hostOps1 V (Proc.devRef .tc main_call0_v29) = (V (Proc.devRef .tc main_call0_v29)) := by
  after_results_simp

set_option maxHeartbeats 4000000 in
/-- and no stretch writes an argument. -/
theorem after0_arg (V : Valuation τ sig (Elt F)) :
    StableHlo.after hostOps0 V (Proc.devRef .tc main_arg1) = (V (Proc.devRef .tc main_arg1))
    ∧ StableHlo.after hostOps0 V (Proc.devRef .tc main_arg2) = (V (Proc.devRef .tc main_arg2))
    ∧ StableHlo.after hostOps0 V (Proc.devRef .tc main_arg3) = (V (Proc.devRef .tc main_arg3))
    ∧ StableHlo.after hostOps0 V (Proc.devRef .tc main_arg4) = (V (Proc.devRef .tc main_arg4))
    ∧ StableHlo.after hostOps0 V (Proc.devRef .tc main_arg5) = (V (Proc.devRef .tc main_arg5)) := by
  refine ⟨?_, ?_, ?_, ?_, ?_⟩ <;> after_results_simp

/-- The last stretch: the second launch's output flattened, cut to its first 1000000 entries, as a column. -/
theorem after2_v0 (V : Valuation τ sig (Elt F)) :
    StableHlo.after hostOps2 V (Proc.devRef .tc main_v0)
      = broadcastInDim S1000000x1 ![0] bcast_S1000000_S1000000x1_0
          (extractStridedSlice S1000000 ![0]
            (shapeCast S1003520 (V (Proc.devRef .tc main_call0_v56)) shapeCasts_S7840x128_S1003520) slices_S1003520_S1000000_0) := by
  after_results_simp
  rfl

/-! ## The boundary contents of the run, as functions of the arguments -/

/-- The state after the first launch: padded state times mask plus aggregate, over row 0 of the index tables. -/
def state1 (a0 : FVec F S1000000x1 .f32) (a1 : FVec F S1024 .f32) (a2 a3 a4 : IVec S2x16000000 32) (a5 : IVec S2x250000 32) :
    FVec F S7840x128 .f32 :=
  comb0 (padState a0) (hostMask (tgtRow0 a5))
    (hostAgg (shapeCast S1003520 (padState a0) shapeCasts_S7840x128_S1003520) a1 (edgeRow0 a2) (edgeRow0 a3) (edgeRow0 a4))

/-- The state after the second launch: the first launch's state times mask plus tanh of the aggregate, over row 1. -/
def state2 (a0 : FVec F S1000000x1 .f32) (a1 : FVec F S1024 .f32) (a2 a3 a4 : IVec S2x16000000 32) (a5 : IVec S2x250000 32) :
    FVec F S7840x128 .f32 :=
  comb1 (state1 a0 a1 a2 a3 a4 a5) (hostMask (tgtRow1 a5))
    (hostAgg (shapeCast S1003520 (state1 a0 a1 a2 a3 a4 a5) shapeCasts_S7840x128_S1003520) a1 (edgeRow1 a2) (edgeRow1 a3) (edgeRow1 a4))

/-- The result column: the second launch's state flattened, its first 1000000 entries. -/
def result (a0 : FVec F S1000000x1 .f32) (a1 : FVec F S1024 .f32) (a2 a3 a4 : IVec S2x16000000 32) (a5 : IVec S2x250000 32) :
    FVec F S1000000x1 .f32 :=
  broadcastInDim S1000000x1 ![0] bcast_S1000000_S1000000x1_0
    (extractStridedSlice S1000000 ![0]
      (shapeCast S1003520 (state2 a0 a1 a2 a3 a4 a5) shapeCasts_S7840x128_S1003520) slices_S1003520_S1000000_0)

variable (m : (ℓ : Loc nD τ sig) → Buf (Elt F) ℓ) (ρ : Dev nD → PrngReg)

/-- At the first launch's exit the arguments are as launched. -/
theorem W2_args (c : Dev nD) :
    W2 m ρ c (Proc.devRef .tc main_arg1) = (m ((c : Thread nD τ).loc main_arg1)) ∧ W2 m ρ c (Proc.devRef .tc main_arg2) = (m ((c : Thread nD τ).loc main_arg2))
    ∧ W2 m ρ c (Proc.devRef .tc main_arg3) = (m ((c : Thread nD τ).loc main_arg3)) ∧ W2 m ρ c (Proc.devRef .tc main_arg4) = (m ((c : Thread nD τ).loc main_arg4))
    ∧ W2 m ρ c (Proc.devRef .tc main_arg5) = (m ((c : Thread nD τ).loc main_arg5)) := by
  obtain ⟨h1, h2, h3, h4, h5⟩ := after0_arg (F := F) (W0 m ρ c)
  exact ⟨(W2_of_ne m ρ c main_arg1 (by decide)).trans h1, (W2_of_ne m ρ c main_arg2 (by decide)).trans h2,
    (W2_of_ne m ρ c main_arg3 (by decide)).trans h3, (W2_of_ne m ρ c main_arg4 (by decide)).trans h4,
    (W2_of_ne m ρ c main_arg5 (by decide)).trans h5⟩

/-- The first launch's output array. -/
theorem W2_out (c : Dev nD) :
    W2 m ρ c (Proc.devRef .tc main_call0_v29) = state1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 3).trans ((final0 (V1 m ρ) c).trans ?_)
  show comb0 (V1 m ρ c main_call0_v2) (V1 m ρ c main_call0_v28) (V1 m ρ c main_call0_v27) = _
  rw [show V1 m ρ c main_call0_v2 = _ from after0_v2 (W0 m ρ c),
    show V1 m ρ c main_call0_v28 = _ from after0_v28 (W0 m ρ c),
    show V1 m ρ c main_call0_v27 = _ from after0_v27 (W0 m ρ c)]
  rfl

/-- The second launch's output array. -/
theorem W4_out (c : Dev nD) :
    W4 m ρ c (Proc.devRef .tc main_call0_v56) = state2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  obtain ⟨h1, h2, h3, h4, h5⟩ := W2_args m ρ c
  refine (W4_arr m ρ c 3).trans ((final1 (V3 m ρ) c).trans ?_)
  show comb1 (V3 m ρ c main_call0_v29) (V3 m ρ c main_call0_v55) (V3 m ρ c main_call0_v54) = _
  rw [show V3 m ρ c main_call0_v29 = _ from after1_v29 (W2 m ρ c),
    show V3 m ρ c main_call0_v55 = _ from after1_v55 (W2 m ρ c),
    show V3 m ρ c main_call0_v54 = _ from after1_v54 (W2 m ρ c),
    h1, h2, h3, h4, h5, W2_out]
  rfl

/-- The result buffer at the end of the run. -/
theorem W5_result (c : Dev nD) :
    W5 m ρ c (Proc.devRef .tc main_v0) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (after2_v0 (W4 m ρ c)).trans ?_
  rw [W4_out]
  rfl

/-! ## Read in row-major order, over the extended reals -/

/-- The flat layout of a 7840 x 128 array read as a vector is its row-major reading. -/
theorem vecFun_flat (X : FVec Ideal S7840x128 .f32) (q : ℕ) :
    vecFun (n := 1003520) (shapeCast S1003520 X shapeCasts_S7840x128_S1003520) q
      = flatFun (a := 7840) (b := 128) (by norm_num) X q := by
  unfold vecFun flatFun
  by_cases h : q < 1003520
  · rw [dif_pos h, dif_pos (show q < 7840 * 128 by omega)]
    refine shapeCast_apply X _ _ _ ?_
    rw [Shape.rowMajor_val_two, Shape.rowMajor_val_one]
    show q / 128 * 128 + q % 128 = q
    exact Nat.div_add_mod' q 128
  · rw [dif_neg h, dif_neg (show ¬ q < 7840 * 128 by omega)]

/-- ONE LAUNCH IS ONE LAYER. An array that is, entry by entry, state times the layer's mask plus the activation of the
    layer's aggregate reads in row-major order as the abstract layer of the state's row-major reading, at every
    position of the padded array: the mask's zero and one make the product the zeroed state, and the aggregate's
    gathers of the flat state are the row-major reading at the sources. -/
theorem comb_flat (act : EReal → EReal) (actF : EReal → EReal) (hact : ∀ x, actF x = act x)
    (X Y : FVec Ideal S7840x128 .f32) (w : FVec Ideal S1024 .f32) (ul vl wl : IVec S16000000 32) (tl : IVec S250000 32)
    (hu : ∀ e : Fin 16000000, 0 ≤ (ul (ix1 e)).toInt ∧ (ul (ix1 e)).toInt < 1000000)
    (hw : ∀ e : Fin 16000000, 0 ≤ (wl (ix1 e)).toInt ∧ (wl (ix1 e)).toInt < 1024)
    (ht : ∀ k : Fin 250000, 0 ≤ (tl (ix1 k)).toInt)
    (hY : ∀ i, Y i = FloatOps.addf (FloatOps.mulf (X i) (hostMask (F := Ideal) tl i))
      (actF (hostAgg (F := Ideal) (shapeCast S1003520 X shapeCasts_S7840x128_S1003520) w ul vl wl i)))
    (p : ℕ) (hp : p < 1003520) :
    flatFun (a := 7840) (b := 128) (by norm_num) Y p
      = layer act (flatFun (a := 7840) (b := 128) (by norm_num) X) (vecFun (n := 1024) w)
          (fun e => (ul (ix1 e)).toInt) (fun e => (vl (ix1 e)).toInt) (fun e => (wl (ix1 e)).toInt)
          (fun k => (tl (ix1 k)).toInt) p := by
  have hp' : p < 7840 * 128 := by omega
  have e1 : p / 128 * 128 + p % 128 = p := Nat.div_add_mod' p 128
  rw [flatFun_of_lt _ Y p hp', hY, Ideal.addf_def, Ideal.mulf_def, hact, hostMask_apply tl ht,
    hostAgg_apply _ w ul vl wl hu hw]
  unfold layer
  simp only [e1, vecFun_flat]
  rw [← flatFun_of_lt (by norm_num) X p hp']
  by_cases hP : ∃ k : Fin 250000, (tl (ix1 k)).toInt = (p : ℤ)
  · simp only [if_pos hP, mul_zero]
  · simp only [if_neg hP, mul_one]

/-- The padded state reads, below 1000000, as the state column. -/
theorem padState_flat (a0 : FVec Ideal S1000000x1 .f32) (n : ℕ) (hn : n < 1000000) :
    flatFun (a := 7840) (b := 128) (by norm_num) (padState (F := Ideal) a0) n = colFun (n := 1000000) a0 n := by
  rw [flatFun_of_lt _ _ n (by omega), colFun_of_lt a0 n hn]
  unfold padState
  refine (shapeCast_apply _ _ _ (ix1 (⟨n, by omega⟩ : Fin 1003520)) ?_).trans ?_
  · rw [Shape.rowMajor_val_one, Shape.rowMajor_val_two]
    show n = n / 128 * 128 + n % 128
    exact (Nat.div_add_mod' n 128).symm
  refine (pad_apply_of_inside _ _ _ _ _ _ _ _ (ix1 (⟨n, hn⟩ : Fin 1000000)) ?_).trans ?_
  · intro a
    obtain rfl : a = 0 := Subsingleton.elim _ _
    show n = 0 + n * (0 + 1)
    omega
  refine shapeCast_apply _ _ _ (ix2 (⟨n, hn⟩ : Fin 1000000) (0 : Fin 1)) ?_
  rw [Shape.rowMajor_val_two, Shape.rowMajor_val_one]
  show n * 1 + 0 = n
  omega

/-- Row i of the result column is the row-major reading of the second launch's state at i. -/
theorem result_flat (a0 : FVec Ideal S1000000x1 .f32) (a1 : FVec Ideal S1024 .f32) (a2 a3 a4 : IVec S2x16000000 32)
    (a5 : IVec S2x250000 32) (i : Fin 1000000) :
    result (F := Ideal) a0 a1 a2 a3 a4 a5 (ix2 i (0 : Fin 1))
      = flatFun (a := 7840) (b := 128) (by norm_num) (state2 (F := Ideal) a0 a1 a2 a3 a4 a5) i.val := by
  have hi : i.val < 1003520 := by have := i.isLt; omega
  rw [← vecFun_flat, vecFun_of_lt _ _ hi]
  unfold result
  have hc : (ix2 i (0 : Fin 1) : S1000000x1.Idx) = StableHlo.Predicate.ixP i := by
    funext a; match a with | ⟨0, _⟩ => rfl | ⟨1, _⟩ => rfl
  rw [hc, StableHlo.Predicate.bcast_col1]
  refine extractStridedSlice_apply _ _ _ _ (ix1 (⟨i.val, hi⟩ : Fin 1003520)) ?_
  intro a
  obtain rfl : a = 0 := Subsingleton.elim _ _
  show i.val = 0 + i.val
  omega

/-- The first launch's state is the first layer (no activation) of the padded state, at every position. -/
theorem state1_flat (a0 : FVec Ideal S1000000x1 .f32) (a1 : FVec Ideal S1024 .f32) (a2 a3 a4 : IVec S2x16000000 32)
    (a5 : IVec S2x250000 32)
    (hu : ∀ e : Fin 16000000, 0 ≤ rowInt 0 a2 e ∧ rowInt 0 a2 e < 1000000)
    (hw : ∀ e : Fin 16000000, 0 ≤ rowInt 0 a4 e ∧ rowInt 0 a4 e < 1024)
    (ht : ∀ k : Fin 250000, 0 ≤ rowInt 0 a5 k) (p : ℕ) (hp : p < 1003520) :
    flatFun (a := 7840) (b := 128) (by norm_num) (state1 (F := Ideal) a0 a1 a2 a3 a4 a5) p
      = layer id (flatFun (a := 7840) (b := 128) (by norm_num) (padState (F := Ideal) a0)) (vecFun (n := 1024) a1)
          (rowInt 0 a2) (rowInt 0 a3) (rowInt 0 a4) (rowInt 0 a5) p := by
  have h := comb_flat id id (fun _ => rfl) (padState (F := Ideal) a0) (state1 (F := Ideal) a0 a1 a2 a3 a4 a5) a1
    (edgeRow0 a2) (edgeRow0 a3) (edgeRow0 a4) (tgtRow0 a5)
    (fun e => by rw [edgeRow0_apply]; exact hu e) (fun e => by rw [edgeRow0_apply]; exact hw e)
    (fun k => by rw [tgtRow0_apply]; exact ht k) (fun i => by unfold state1 comb0; rw [id_eq]) p hp
  rw [h]
  congr 1 <;> funext e
  · exact edgeRow0_apply a2 e
  · exact edgeRow0_apply a3 e
  · exact edgeRow0_apply a4 e
  · exact tgtRow0_apply a5 e

/-- The second launch's state is the second layer (tanh) of the first launch's state, at every position. -/
theorem state2_flat (a0 : FVec Ideal S1000000x1 .f32) (a1 : FVec Ideal S1024 .f32) (a2 a3 a4 : IVec S2x16000000 32)
    (a5 : IVec S2x250000 32)
    (hu : ∀ e : Fin 16000000, 0 ≤ rowInt 1 a2 e ∧ rowInt 1 a2 e < 1000000)
    (hw : ∀ e : Fin 16000000, 0 ≤ rowInt 1 a4 e ∧ rowInt 1 a4 e < 1024)
    (ht : ∀ k : Fin 250000, 0 ≤ rowInt 1 a5 k) (p : ℕ) (hp : p < 1003520) :
    flatFun (a := 7840) (b := 128) (by norm_num) (state2 (F := Ideal) a0 a1 a2 a3 a4 a5) p
      = layer Ideal.tanh (flatFun (a := 7840) (b := 128) (by norm_num) (state1 (F := Ideal) a0 a1 a2 a3 a4 a5))
          (vecFun (n := 1024) a1) (rowInt 1 a2) (rowInt 1 a3) (rowInt 1 a4) (rowInt 1 a5) p := by
  have h := comb_flat Ideal.tanh (FloatOps.tanh (F := Ideal) (φ := .f32)) (fun _ => rfl) (state1 (F := Ideal) a0 a1 a2 a3 a4 a5)
    (state2 (F := Ideal) a0 a1 a2 a3 a4 a5) a1
    (edgeRow1 a2) (edgeRow1 a3) (edgeRow1 a4) (tgtRow1 a5)
    (fun e => by rw [edgeRow1_apply]; exact hu e) (fun e => by rw [edgeRow1_apply]; exact hw e)
    (fun k => by rw [tgtRow1_apply]; exact ht k) (fun i => by unfold state2 comb1; rfl) p hp
  rw [h]
  congr 1 <;> funext e
  · exact edgeRow1_apply a2 e
  · exact edgeRow1_apply a3 e
  · exact edgeRow1_apply a4 e
  · exact tgtRow1_apply a5 e

end Cert.KernelIdeal.Hand

end
-- ==== Proof.lean ====
/-
  The kernel and the reference compute the same two message-passing layers.

  A layer sends, along every edge, the source node's value times the edge's weight to the destination node, and gives
  each node its old value (zero at a target) plus the activation of what arrives; the first layer has no activation,
  the second tanh. The reference keeps 1000000 nodes as a column. The kernel keeps them padded to 1003520 entries,
  laid out as 7840 rows of 128: it builds each layer's aggregate and a zero / one target mask on the host and combines
  state times mask plus activation of the aggregate in a launch over ten blocks of rows.

  The precondition adds to the finiteness of the float inputs the evident domain of the index tables: every edge source
  is a node number, every weight number is a position of the weight table, and every target is nonnegative. Then neither
  program wraps, clamps or fills an index; a padding entry is read by no edge and is cut off at the end; the mask's zero
  and one make the kernel's product the reference's zeroed state (x · 0 = 0 and x · 1 = x on the extended reals); and
  both sums range over the same edges. So each program's layer is the abstract layer of Spec.lean over its own state,
  the two states agree below 1000000 layer after layer (a layer below 1000000 reads the old state only below 1000000),
  and the results are equal row by row.

  The frames of the two kernel programs and the reference's run are the generated ones; the kernel's run is taken
  with its result named.
-/
import proofs.«422089_j55628416417928_3_alg».proof.Defs
import proofs.«422089_j55628416417928_3_alg».proof.Proof.Gen.Kernel
import proofs.«422089_j55628416417928_3_alg».proof.Proof.Gen.Kernel.Skeleton
import proofs.«422089_j55628416417928_3_alg».proof.Proof.Gen.Kernel.Launch
import proofs.«422089_j55628416417928_3_alg».proof.Proof.Gen.Kernel.Points
import proofs.«422089_j55628416417928_3_alg».proof.Proof.Gen.Kernel.Frame
import proofs.«422089_j55628416417928_3_alg».proof.Proof.Gen.KernelIdeal
import proofs.«422089_j55628416417928_3_alg».proof.Proof.Gen.KernelIdeal.Skeleton
import proofs.«422089_j55628416417928_3_alg».proof.Proof.Gen.KernelIdeal.Launch
import proofs.«422089_j55628416417928_3_alg».proof.Proof.Gen.KernelIdeal.Points
import proofs.«422089_j55628416417928_3_alg».proof.Proof.Gen.KernelIdeal.Frame
import proofs.«422089_j55628416417928_3_alg».proof.Proof.Gen.ReferenceIdeal
import proofs.«422089_j55628416417928_3_alg».proof.Proof.Gen.Pre_finite_inputs
import proofs.«422089_j55628416417928_3_alg».proof.Proof.Gen.ReferenceIdeal.Run
import proofs.«422089_j55628416417928_3_alg».proof.Proof.Gen.ReferenceIdeal.Read
import proofs.«422089_j55628416417928_3_alg».proof.Proof.Spec
import proofs.«422089_j55628416417928_3_alg».proof.Proof.PreBounds
import proofs.«422089_j55628416417928_3_alg».proof.Proof.RefSide
import proofs.«422089_j55628416417928_3_alg».proof.Proof.KerFrame
import proofs.«422089_j55628416417928_3_alg».proof.Proof.KerValue
import Idealize.ShloMosaic.Adequacy
import Idealize.ShloMosaic.Init

noncomputable section

namespace Cert.Proof

open Idealize.ShloMosaic Idealize.ShloMosaic.ValueIdx Idealize.SL.Sem Cert.Spec

/-- THE VALUES AGREE. Under the index ranges the precondition states, the kernel's result column is the reference's:
    row by row both are the second layer over states that agree below 1000000, which are the first layer over states
    that agree below 1000000 (the padded state and the state column). -/
theorem value_eq (a0 : FVec Ideal Cert.KernelIdeal.S1000000x1 .f32) (a1 : FVec Ideal Cert.KernelIdeal.S1024 .f32)
    (a2 a3 a4 : IVec Cert.KernelIdeal.S2x16000000 32) (a5 : IVec Cert.KernelIdeal.S2x250000 32)
    (hu : ∀ (l : Fin 2) (e : Fin 16000000), 0 ≤ rowInt l a2 e ∧ rowInt l a2 e < 1000000)
    (hw : ∀ (l : Fin 2) (e : Fin 16000000), 0 ≤ rowInt l a4 e ∧ rowInt l a4 e < 1024)
    (ht : ∀ (l : Fin 2) (k : Fin 250000), 0 ≤ rowInt l a5 k) :
    Cert.ReferenceIdeal.Read.val_main_v72 (F := Ideal) a0 a1 a2 a3 a4 a5
      = Cert.KernelIdeal.Hand.result (F := Ideal) a0 a1 a2 a3 a4 a5 := by
  funext j
  obtain ⟨i, q, rfl⟩ : ∃ (i : Fin 1000000) (q : Fin 1), j = ix2 i q := ⟨j 0, j 1, eq_ix2 j⟩
  obtain rfl : q = 0 := Subsingleton.elim _ _
  have hu' : ∀ (l : Fin 2) (e : Fin 16000000), 0 ≤ rowInt l a2 e ∧ rowInt l a2 e < ((1000000 : ℕ) : ℤ) :=
    fun l e => ⟨(hu l e).1, by have := (hu l e).2; exact_mod_cast this⟩
  rw [Cert.KernelIdeal.Hand.result_flat, Cert.ReferenceIdeal.Hand.layer1_apply a0 a1 a2 a3 a4 a5 (hu 1) (hw 1) (ht 1) i,
    Cert.KernelIdeal.Hand.state2_flat a0 a1 a2 a3 a4 a5 (hu 1) (hw 1) (ht 1) i.val (by have := i.isLt; omega)]
  refine layer_congr Ideal.tanh _ _ _ _ _ 1000000 (fun n hn => ?_) (hu' 1) i.val i.isLt
  rw [colFun_of_lt _ n hn, Cert.ReferenceIdeal.Hand.layer0_apply a0 a1 a2 a3 a4 a5 (hu 0) (hw 0) (ht 0) ⟨n, hn⟩,
    Cert.KernelIdeal.Hand.state1_flat a0 a1 a2 a3 a4 a5 (hu 0) (hw 0) (ht 0) n (by omega)]
  exact layer_congr id _ _ _ _ _ 1000000
    (fun k hk => (Cert.KernelIdeal.Hand.padState_flat a0 k hk).symm) (hu' 0) n hn

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its generated run with the result dropped
    exact fun m ρ _ => (θ_run Cert.ReferenceIdeal.defs _ _).mono (fun _ h c => (h c).2)
      (Cert.ReferenceIdeal.Value.run (F := Ideal) m ρ)
  · -- the two runs end with the same result column
    intro m ρ m' ρ' hpre hagree
    refine ⟨fun c => Cert.KernelIdeal.Hand.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
    · exact (θ_run Cert.KernelIdeal.defs _ _).mono
        (fun r h c => ⟨(h c).1.trans (Cert.KernelIdeal.Hand.W5_result m ρ c), (h c).2⟩)
        (Cert.KernelIdeal.Named.run_named m ρ)
    · refine (θ_run Cert.ReferenceIdeal.defs _ _).mono (fun r h c => ⟨(h c).1.trans ?_, (h c).2⟩)
        (Cert.ReferenceIdeal.Value.run (F := Ideal) m' ρ')
      obtain ⟨hu, hw, ht⟩ := Cert.Pre_finite_inputs.Hand.bounds (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (hpre c)
      rw [Cert.ReferenceIdeal.Read.val_main_v72_eq, (hagree c).1, (hagree c).2.1, (hagree c).2.2.1, (hagree c).2.2.2.1,
        (hagree c).2.2.2.2.1, (hagree c).2.2.2.2.2]
      exact value_eq _ _ _ _ _ _ hu hw ht⟩

end Cert.Proof

end
